-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x32x64x64 : Shape := ⟨5, ![2, 4, 32, 64, 64]⟩
abbrev S_ : Shape := ⟨0, ![]⟩

class Facts : Prop where
  bcast_S_S2x4x32x64x64 : S_.BroadcastsInDim S2x4x32x64x64 (![] : Fin 0 → Fin S2x4x32x64x64.rank)
  reducesTo_S2x4x32x64x64_S_d0_1_2_3_4 : S2x4x32x64x64.ReducesTo [0, 1, 2, 3, 4] S_
  h_S_ : 0 < S_.numel

variable [Facts]

def fn {F : FTy → Type} [FloatOps F] (main_arg0 : FVec F S2x4x32x64x64 .f32) (main_arg1 : FVec F S2x4x32x64x64 .f32) : IVec S_ 1 :=
  let main_v0 : FVec F S2x4x32x64x64 .f32 := Host.absf main_arg0
  let main_cst : FVec F S_ .f32 := constant S_ .f32 0x7F800000#32
  let main_v1 : FVec F S2x4x32x64x64 .f32 := broadcastInDim S2x4x32x64x64 ![] bcast_S_S2x4x32x64x64 main_cst
  let main_v2 : IVec S2x4x32x64x64 1 := cmpf .olt main_v0 main_v1
  let main_c : IVec S_ 1 := constantI S_ 1 1#1
  let main_v3 : IVec S_ 1 := (fun x v => Host.reduce IntOp.andi x v reducesTo_S2x4x32x64x64_S_d0_1_2_3_4 h_S_) main_v2 main_c
  let main_v4 : FVec F S2x4x32x64x64 .f32 := Host.absf main_arg1
  let main_cst_0 : FVec F S_ .f32 := constant S_ .f32 0x7F800000#32
  let main_v5 : FVec F S2x4x32x64x64 .f32 := broadcastInDim S2x4x32x64x64 ![] bcast_S_S2x4x32x64x64 main_cst_0
  let main_v6 : IVec S2x4x32x64x64 1 := cmpf .olt main_v4 main_v5
  let main_c_1 : IVec S_ 1 := constantI S_ 1 1#1
  let main_v7 : IVec S_ 1 := (fun x v => Host.reduce IntOp.andi x v reducesTo_S2x4x32x64x64_S_d0_1_2_3_4 h_S_) main_v6 main_c_1
  let main_v8 : IVec S_ 1 := andi main_v3 main_v7
  main_v8
-- ==== Kernel.lean ====
abbrev S2x4x32x64x64 : Shape := ⟨5, ![2, 4, 32, 64, 64]⟩
abbrev S8x32x4096 : Shape := ⟨3, ![8, 32, 4096]⟩
abbrev S1x1 : Shape := ⟨2, ![1, 1]⟩
abbrev S1x32x1024 : Shape := ⟨3, ![1, 32, 1024]⟩
abbrev S32x1024 : Shape := ⟨2, ![32, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S2x4x32x64x64, .f32⟩
  | .hbm, ⟨1, _⟩ => ⟨S2x4x32x64x64, .f32⟩
  | .hbm, ⟨2, _⟩ => ⟨S8x32x4096, .f32⟩
  | .hbm, ⟨3, _⟩ => ⟨S8x32x4096, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x1, .f32⟩
  | .local _ .vmem, ⟨9, _⟩ => ⟨S1x1, .f32⟩
  | _, _ => ⟨S2x4x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg0 : BitVec 32 := BitVec.ofNat 32 (i 0).val
  let c7_i32 : BitVec 32 := 7#32
  let v5 : BitVec 1 := Scalar.cmpi .eq arg0 c7_i32
  let arg1 : BitVec 32 := BitVec.ofNat 32 (i 1).val
  let c3_i32 : BitVec 32 := 3#32
  let v6 : BitVec 1 := Scalar.cmpi .eq arg1 c3_i32
  let v7 : BitVec 1 := Scalar.andi v5 v6
  let arg2 : BitVec 32 := BitVec.ofNat 32 (i 2).val
  let c3_i32_2 : BitVec 32 := 3#32
  let v8 : BitVec 1 := Scalar.cmpi .eq arg2 c3_i32_2
  let v9 : BitVec 1 := Scalar.andi v7 v8
  let v69 : BitVec 32 := Scalar.extui v9
  let c0_i32_30 : BitVec 32 := 0#32
  let v70 : BitVec 1 := Scalar.cmpi .ne v69 c0_i32_30
  v70

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

class Facts₀ : Prop where
  shapeCasts_S2x4x32x64x64_S8x32x4096 : S2x4x32x64x64.ShapeCasts S8x32x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  reduces_S32x1024_S1024 : S32x1024.Reduces [0] S1024
  shapeCasts_S1024_S1x1024 : S1024.ShapeCasts S1x1024
  broadcasts_S1x1024_S32x1024 : S1x1024.Broadcasts S32x1024
  bitsLt_bf16_f32 : FTy.bits .bf16 < FTy.bits .f32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  dot_S32x1024_S32x1024_S1024x1024_0_0_1_1_n_n_wf : DotDims.WF S32x1024 S32x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1024.size a ≤ S8x32x4096.size a
  hwx0_0 : ∀ i : grid0.Coords, EltTy.bits .f32 = 32 ∨ (Rect.block (s := S8x32x4096) S1x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x1024.size a ≤ S8x32x4096.size a
  hwx0_1 : ∀ i : grid0.Coords, EltTy.bits .f32 = 32 ∨ (Rect.block (s := S8x32x4096) S1x32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x1024.size a ≤ S8x32x4096.size a
  hwx0_2 : ∀ i : grid0.Coords, EltTy.bits .f32 = 32 ∨ (Rect.block (s := S8x32x4096) S1x32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1024.size a ≤ S8x32x4096.size a
  hwx0_3 : ∀ i : grid0.Coords, EltTy.bits .f32 = 32 ∨ (Rect.block (s := S8x32x4096) S1x32x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S32x1024_S32x1024_S1024x1024_0_0_1_1_n_n : DotDims S32x1024 S32x1024 S1024x1024 where
  lhsContracting := [0]
  rhsContracting := [0]
  lhsNonContracting := [1]
  rhsNonContracting := [1]
  lhsBatch := []
  rhsBatch := []
  wf := dot_S32x1024_S32x1024_S1024x1024_0_0_1_1_n_n_wf

abbrev win0_0 : Pipeline.Window sig grid0 :=
  Pipeline.Window.ofSpec (Memref.whole main_v0) S1x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x32x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4x32x64x64 : Shape := ⟨5, ![2, 4, 32, 64, 64]⟩
abbrev S8x32x64x64 : Shape := ⟨4, ![8, 32, 64, 64]⟩
abbrev S_ : Shape := ⟨0, ![]⟩
abbrev S8x64x64 : Shape := ⟨3, ![8, 64, 64]⟩
abbrev S8x1x64x64 : Shape := ⟨4, ![8, 1, 64, 64]⟩
abbrev S8x32x4096 : Shape := ⟨3, ![8, 32, 4096]⟩
abbrev S8x4096x4096 : Shape := ⟨3, ![8, 4096, 4096]⟩

abbrev nBuf : Space → Nat
  | .hbm => 38
  | .vmem => 0
  | .smem => 0
  | _ => 0

abbrev bufTy : (tb : Table) → Fin (tcTables nBuf tb) → BufTy
  | .hbm, ⟨0, _⟩ => ⟨S2x4x32x64x64, .f32⟩
  | .hbm, ⟨1, _⟩ => ⟨S2x4x32x64x64, .f32⟩
  | .hbm, ⟨2, _⟩ => ⟨S8x32x64x64, .f32⟩
  | .hbm, ⟨3, _⟩ => ⟨S8x32x64x64, .f32⟩
  | .hbm, ⟨4, _⟩ => ⟨S8x32x64x64, .f32⟩
  | .hbm, ⟨5, _⟩ => ⟨S_, .f32⟩
  | .hbm, ⟨6, _⟩ => ⟨S8x64x64, .f32⟩
  | .hbm, ⟨7, _⟩ => ⟨S8x1x64x64, .f32⟩
  | .hbm, ⟨8, _⟩ => ⟨S8x1x64x64, .f32⟩
  | .hbm, ⟨9, _⟩ => ⟨S_, .f32⟩
  | .hbm, ⟨10, _⟩ => ⟨S8x1x64x64, .f32⟩
  | .hbm, ⟨11, _⟩ => ⟨S8x1x64x64, .f32⟩
  | .hbm, ⟨12, _⟩ => ⟨S8x32x64x64, .f32⟩
  | .hbm, ⟨13, _⟩ => ⟨S8x32x64x64, .f32⟩
  | .hbm, ⟨14, _⟩ => ⟨S8x32x4096, .f32⟩
  | .hbm, ⟨15, _⟩ => ⟨S8x4096x4096, .f32⟩
  | .hbm, ⟨16, _⟩ => ⟨S8x32x64x64, .f32⟩
  | .hbm, ⟨17, _⟩ => ⟨S_, .f32⟩
  | .hbm, ⟨18, _⟩ => ⟨S8x64x64, .f32⟩
  | .hbm, ⟨19, _⟩ => ⟨S8x1x64x64, .f32⟩
  | .hbm, ⟨20, _⟩ => ⟨S8x1x64x64, .f32⟩
  | .hbm, ⟨21, _⟩ => ⟨S_, .f32⟩
  | .hbm, ⟨22, _⟩ => ⟨S8x1x64x64, .f32⟩
  | .hbm, ⟨23, _⟩ => ⟨S8x1x64x64, .f32⟩
  | .hbm, ⟨24, _⟩ => ⟨S8x32x64x64, .f32⟩
  | .hbm, ⟨25, _⟩ => ⟨S8x32x64x64, .f32⟩
  | .hbm, ⟨26, _⟩ => ⟨S8x32x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S2x4x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  shapeCasts_S2x4x32x64x64_S8x32x64x64 : S2x4x32x64x64.ShapeCasts S8x32x64x64
  reducesTo_S8x32x64x64_S8x64x64_d1 : S8x32x64x64.ReducesTo [1] S8x64x64
  h_S_ : 0 < S_.numel
  bcast_S8x64x64_S8x1x64x64_0_2_3 : S8x64x64.BroadcastsInDim S8x1x64x64 (![0, 2, 3] : Fin 3 → Fin S8x1x64x64.rank)
  bcast_S_S8x1x64x64 : S_.BroadcastsInDim S8x1x64x64 (![] : Fin 0 → Fin S8x1x64x64.rank)
  bcast_S8x1x64x64_S8x32x64x64_0_1_2_3 : S8x1x64x64.BroadcastsInDim S8x32x64x64 (![0, 1, 2, 3] : Fin 4 → Fin S8x32x64x64.rank)
  shapeCasts_S8x32x64x64_S8x32x4096 : S8x32x64x64.ShapeCasts S8x32x4096
  reducesTo_S8x4096x4096_S_d0_1_2 : S8x4096x4096.ReducesTo [0, 1, 2] S_
  dot_S8x32x4096_S8x32x4096_S8x4096x4096_1_1_2_2_0_0_wf : DotDims.WF S8x32x4096 S8x32x4096 S8x4096x4096 [1] [1] [2] [2] [0] [0]

variable [Facts₀]

def dot_S8x32x4096_S8x32x4096_S8x4096x4096_1_1_2_2_0_0 : DotDims S8x32x4096 S8x32x4096 S8x4096x4096 where
  lhsContracting := [1]
  rhsContracting := [1]
  lhsNonContracting := [2]
  rhsNonContracting := [2]
  lhsBatch := [0]
  rhsBatch := [0]
  wf := dot_S8x32x4096_S8x32x4096_S8x4096x4096_1_1_2_2_0_0_wf

class Facts : Prop extends Facts₀ where

variable [Facts]
-- ==== Proof.KI.Runs.lean ====
/-
  What the three runs of the kernel body and the frame share.

  @main reshapes each argument array to [8, 32, 4096], runs the kernel region over an 8 × 4 × 4 grid, and divides
  the region's one result three times. The region stages four input windows — a row block and a column block of
  each reshaped array, two windows on each array — and one [1, 1] output window, and carries a [1, 1] accumulator in
  scratch from point to point. Here: the buffers' contents when the region is entered (`V`), each window's block at
  a point read off them (`iblk`), that an input's staging buffer holds its block at every point, the two conditions
  the body branches on in closed form over the grid — the first point resets the accumulator, the last point stores it
  to the output —, where the output window is idle, and the staging and scratch memrefs by name.
-/
import proofs.«110113_j85057532330632_1_alg».proof.Proof.Gen.KernelIdeal.Launch
import proofs.«110113_j85057532330632_1_alg».proof.Proof.Gen.KernelIdeal.Skeleton
import proofs.«110113_j85057532330632_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshapes, the region, then the three divisions: it reduces to the region continued by the divisions,
    the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Neither reshape writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched its block index has not moved), for any proof data whose array is `V`'s and whose body leaves the block in
    place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the grid's first point" as the body computes it: all three coordinates equal zero. -/
abbrev cond0_0 (i : grid0.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- "This is the grid's last point": the coordinates equal (7, 3, 3). -/
abbrev cond0_1 (i : grid0.Coords) : Prop := k0_cond2 i = 1#1
/-- It holds at point 127 only. -/
theorem hcond0_1 : ∀ t : Fin cfg0.N, cond0_1 (grid0.coords t) ↔ t.val = 127 :=
  (by decide +kernel : ∀ t : Fin grid0.N, cond0_1 (grid0.coords t) ↔ t.val = 127)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the body stores nothing into the output window, and the pipeline does not write it back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last point it is live. -/
theorem liveAt0_4 : ∀ t : Fin cfg0.N, cond0_1 (grid0.coords t) → cfg0.idle 4 (grid0.coords t) = false := by decide +kernel

/-! ## The staging and scratch memrefs -/

/-- The output window's staging buffer as a view: what it holds is stated through it. -/
abbrev VO0_4 : View sig .tc .vmem S1x1 .f32 := (Memref.whole cc0_stg4_0 : Memref sig .tc .vmem S1x1 .f32).view
/-- Each window's current staging memref at point `t`, and its wholeness. -/
abbrev ms0_0 (t : Fin cfg0.N) : Memref sig .tc .vmem S1x32x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S1x1 .f32 := Memref.whole cc0_scratch0
abbrev VS0_0 : View sig .tc .vmem S1x1 .f32 := scM0_0.view

/-- The region's invariant before the first point: the accumulator at some contents, the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The kernel body run once, whole, at the grid's FIRST point (the accumulator is reset, then added to; the output is not stored): on whole staging memrefs holding the four input blocks, the body
  runs to its end and leaves the inputs as they were; what its stores leave in the accumulator (and, where it stores
  it, in the output buffer) is recorded as a list of pieces, found by the run itself.
-/
import proofs.«110113_j85057532330632_1_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- First point: the accumulator is found at anything, reset to zero and then added to; the output buffer is handed
    back untouched. -/
noncomputable def kernelRun0_A (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1x32x1024 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__sim_diff_kernel i arg3 harg3 arg4 harg4 arg5 harg5 arg6 harg6 arg7 harg7 arg8 harg8) K } := by
  refine ⟨[], ?_, fun xi4 E K => ?run⟩
  case run =>
    simp only [cc0__sim_diff_kernel_eq_skeleton]; unfold cc0__sim_diff_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.RunB.lean ====
/-
  The kernel body run once, whole, at a MIDDLE point (neither first nor last: the accumulator is added to; the output is not stored): on whole staging memrefs holding the four input blocks, the body
  runs to its end and leaves the inputs as they were; what its stores leave in the accumulator (and, where it stores
  it, in the output buffer) is recorded as a list of pieces, found by the run itself.
-/
import proofs.«110113_j85057532330632_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A middle point: the accumulator is found at what the point before left (`xs0`) and added to; the output buffer is
    handed back untouched. -/
noncomputable def kernelRun0_B (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1x32x1024 .f32) (xs0 : Vec F S1x1 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__sim_diff_kernel i arg3 harg3 arg4 harg4 arg5 harg5 arg6 harg6 arg7 harg7 arg8 harg8) K } := by
  refine ⟨[], ?_, fun xi4 E K => ?run⟩
  case run =>
    simp only [cc0__sim_diff_kernel_eq_skeleton]; unfold cc0__sim_diff_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.RunC.lean ====
/-
  The kernel body run once, whole, at the grid's LAST point (the accumulator is added to, then stored to the output): on whole staging memrefs holding the four input blocks, the body
  runs to its end and leaves the inputs as they were; what its stores leave in the accumulator (and, where it stores
  it, in the output buffer) is recorded as a list of pieces, found by the run itself.
-/
import proofs.«110113_j85057532330632_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The last point: the accumulator is found at what the point before left (`xs0`), added to, read back and stored to
    the output buffer, which is found at anything. -/
noncomputable def kernelRun0_C (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1x32x1024 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__sim_diff_kernel i arg3 harg3 arg4 harg4 arg5 harg5 arg6 harg6 arg7 harg7 arg8 harg8) K } := by
  refine ⟨?_, ?_, fun E K => ?run⟩
  case run =>
    simp only [cc0__sim_diff_kernel_eq_skeleton]; unfold cc0__sim_diff_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KI.Frame.lean ====
/-
  The proof data of the kernel region and its body obligation.

  After the body at grid point n the accumulator holds what the point's run leaves in it: at the first point the run
  resets it and adds the first tile's total; at every later point the run adds that point's total to what the point
  before left. The output window's staging buffer is stored only at the last point, with the accumulator's value
  there; elsewhere the window is idle and its buffer is handed back as found. Each input window's buffer holds its
  block at every point. The region's invariant tracks the accumulator: anything before the first point, the previous
  point's contents afterwards. With these as proof data, the body's three whole runs (first, middle, last point)
  discharge the obligation at every point.
-/
import proofs.«110113_j85057532330632_1_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- First point: nothing is stored into the output window (a placeholder nothing consults). -/
def out0_A_4 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 x1 x2 x3 : Vec F S1x32x1024 .f32) : Vec F S1x1 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)
/-- First point: the stores into the accumulator cover it. -/
theorem scover0_A_0 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 x1 x2 x3 : Vec F S1x32x1024 .f32) (y : S1x1.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1x1.size (by sl_kernel_rfl) y
/-- First point: what the accumulator holds afterwards. -/
def sout0_A_0 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 x1 x2 x3 : Vec F S1x32x1024 .f32) : Vec F S1x1 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- Middle point: nothing is stored into the output window. -/
def out0_B_4 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 x1 x2 x3 : Vec F S1x32x1024 .f32) (xs0 : Vec F S1x1 .f32) : Vec F S1x1 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)
theorem scover0_B_0 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 x1 x2 x3 : Vec F S1x32x1024 .f32) (xs0 : Vec F S1x1 .f32) (y : S1x1.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S1x1.size (by sl_kernel_rfl) y
/-- Middle point: what the accumulator holds afterwards, over what the point before left (`xs0`). -/
def sout0_B_0 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 x1 x2 x3 : Vec F S1x32x1024 .f32) (xs0 : Vec F S1x1 .f32) : Vec F S1x1 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- Last point: the one store into the output window covers it. -/
theorem cover0_C_4 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 x3 : Vec F S1x32x1024 .f32) (xs0 : Vec F S1x1 .f32) (y : S1x1.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x1.size (by sl_kernel_rfl) y
/-- Last point: what the output window's staging buffer holds afterwards. -/
def out0_C_4 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 x3 : Vec F S1x32x1024 .f32) (xs0 : Vec F S1x1 .f32) : Vec F S1x1 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)
theorem scover0_C_0 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 x3 : Vec F S1x32x1024 .f32) (xs0 : Vec F S1x1 .f32) (y : S1x1.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S1x1.size (by sl_kernel_rfl) y
/-- Last point: what the accumulator holds afterwards. -/
def sout0_C_0 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 x3 : Vec F S1x32x1024 .f32) (xs0 : Vec F S1x1 .f32) : Vec F S1x1 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## What the output window's buffer and the accumulator hold after each point -/

/-- After the body at position `n`: (the output window's staging buffer, the accumulator). Point 0 resets; every later
    point adds to what the point before left; point 127 also stores the output. -/
def outsAt0 (c : Dev nD) : (n : ℕ) → n < cfg0.N → Vec F S1x1 .f32 × Vec F S1x1 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h1 : n + 1 = 127 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => (fun h => by (try dsimp only at h); omega) ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => (fun h => by (try dsimp only at h); omega) ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => (fun h => by (try dsimp only at h); omega) ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => (fun h => by (try dsimp only at h); omega) ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At the first point. -/
theorem outsAt0_A (c : Dev nD) (t : Fin cfg0.N) (h0 : t.val = 0) (h1 : ¬t.val = 127) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t),
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact absurd h0 (Nat.succ_ne_zero n)

/-- At a middle point: over what the point before left. -/
theorem outsAt0_B (c : Dev nD) (t : Fin cfg0.N) (h0 : ¬t.val = 0) (h1 : ¬t.val = 127) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- At the last point: over what the point before left. -/
theorem outsAt0_C (c : Dev nD) (t : Fin cfg0.N) (h0 : ¬t.val = 0) (h1 : t.val = 127) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point the accumulator at anything; afterwards at what
    the point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block, the output's at `outsAt0`;
    the tracking invariant; the two arrays that two windows read split in halves between them; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]
theorem q_eq (c : Dev nD) : (dats m 0 c).q 0 = fullShare.left ∧ (dats m 0 c).q 1 = fullShare.right ∧ (dats m 0 c).q 2 = fullShare.left ∧ (dats m 0 c).q 3 = fullShare.right :=
  ⟨rfl, rfl, rfl, rfl⟩
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point: the inputs' buffers hold their blocks; the point is the first, a middle one or the last;
    that case's run applies, the invariant handing it the accumulator and taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 128 := lt_of_lt_of_eq t.isLt (show cfg0.N = 128 from N_0)
  by_cases h0 : t.val = 0
  · have h1 : ¬t.val = 127 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 127
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

end Cert.KernelIdeal.Fr

end
-- ==== Proof.KI.Pieces.lean ====
/-
  What each whole run of the body leaves, named by the body's arithmetic: the accumulator after a point is the
  point's payload — the tile total of the four blocks added to the incoming accumulator — where the incoming
  accumulator is the reset value at the first point and what the point before left otherwise; at the last point the
  output buffer receives that same value.
-/
import proofs.«110113_j85057532330632_1_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole [1,1] buffer, as the constant function. -/
theorem offs2_zero : (![0, 0] : Fin 2 → Nat) = fun _ => 0 := by
  funext a; match a with | ⟨0, _⟩ => rfl | ⟨1, _⟩ => rfl
/-- The zero offsets of a whole [1,32,1024] block. -/
theorem offs3_zero : (![0, 0, 0] : Fin 3 → Nat) = fun _ => 0 := by
  funext a; match a with | ⟨0, _⟩ => rfl | ⟨1, _⟩ => rfl | ⟨2, _⟩ => rfl

/-- First point: the accumulator ends at the payload over the reset value. -/
theorem sout0_A_0_eq (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 x1 x2 x3 : Vec F S1x32x1024 .f32) :
    sout0_A_0 c i arg3 harg3 arg4 harg4 arg5 harg5 arg6 harg6 arg7 harg7 arg8 harg8 hc0 hc1 x0 x1 x2 x3 = k0_pay1 (k0_pay3 x0) (k0_pay4 x1) (k0_pay5 x2) (k0_pay6 x2) x3 (k0_pay2 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) offs2_zero]
  simp only [View.readAt_eq_ld, harg3.read_unread, harg4.read_unread, harg5.read_unread, harg6.read_unread, harg8.read_unread,
    View.ld_unit_zero (S := S1x32x1024) offs3_zero, View.ld_unit_zero (S := S1x1) offs2_zero, View.readCov_unit_zero (S := S1x1) _ offs2_zero]

/-- Middle point: the accumulator ends at the payload over what the point before left. -/
theorem sout0_B_0_eq (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 x1 x2 x3 : Vec F S1x32x1024 .f32) (xs0 : Vec F S1x1 .f32) :
    sout0_B_0 c i arg3 harg3 arg4 harg4 arg5 harg5 arg6 harg6 arg7 harg7 arg8 harg8 hc0 hc1 x0 x1 x2 x3 xs0 = k0_pay1 (k0_pay3 x0) (k0_pay4 x1) (k0_pay5 x2) (k0_pay6 x2) x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero offs2_zero]
  simp only [View.readAt_eq_ld, harg3.read_unread, harg4.read_unread, harg5.read_unread, harg6.read_unread, harg8.read_unread,
    View.ld_unit_zero (S := S1x32x1024) offs3_zero, View.ld_unit_zero (S := S1x1) offs2_zero, View.readCov_unit_zero (S := S1x1) _ offs2_zero]

/-- Last point: the accumulator likewise, -/
theorem sout0_C_0_eq (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 x3 : Vec F S1x32x1024 .f32) (xs0 : Vec F S1x1 .f32) :
    sout0_C_0 c i arg3 harg3 arg4 harg4 arg5 harg5 arg6 harg6 arg7 harg7 arg8 harg8 hc0 hc1 x0 x1 x2 x3 xs0 = k0_pay1 (k0_pay3 x0) (k0_pay4 x1) (k0_pay5 x2) (k0_pay6 x2) x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  dsimp only
  rw [View.canon_unit_zero offs2_zero]
  simp only [View.readAt_eq_ld, harg3.read_unread, harg4.read_unread, harg5.read_unread, harg6.read_unread, harg8.read_unread,
    View.ld_unit_zero (S := S1x32x1024) offs3_zero, View.ld_unit_zero (S := S1x1) offs2_zero, View.readCov_unit_zero (S := S1x1) _ offs2_zero]

/-- and the output buffer receives the same value. -/
theorem out0_C_4_eq (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 x3 : Vec F S1x32x1024 .f32) (xs0 : Vec F S1x1 .f32) :
    out0_C_4 c i arg3 harg3 arg4 harg4 arg5 harg5 arg6 harg6 arg7 harg7 arg8 harg8 hc0 hc1 x0 x1 x2 x3 xs0 = k0_pay1 (k0_pay3 x0) (k0_pay4 x1) (k0_pay5 x2) (k0_pay6 x2) x3 xs0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  dsimp only
  rw [View.canon_unit_zero offs2_zero]
  simp only [View.readAt_eq_ld, harg3.read_unread, harg4.read_unread, harg5.read_unread, harg6.read_unread, harg8.read_unread,
    View.ld_unit_zero (S := S1x32x1024) offs3_zero, View.ld_unit_zero (S := S1x1) offs2_zero, View.readCov_unit_zero (S := S1x1) _ offs2_zero]

end Cert.KernelIdeal.Fr

end
-- ==== Proof.Spec.lean ====
/-
  The loss both programs compute, as ONE function of the two argument arrays over the extended reals.

  An argument array is indexed [b, l, c, h, w] with extents [2, 4, 32, 64, 64]. Fold b and l into a sample
  n = 4·b + l (8 samples) and h and w into a position p = 64·h + w (4096 positions). At each sample and
  position the 32 channel values form a vector; `unit` divides it by its Euclidean length plus a small
  constant. `gram` is the 4096 × 4096 matrix of inner products of those normalised vectors within a sample.
  The loss is the sum, over all samples and all pairs of positions, of the squared difference of the two
  arrays' Gram matrices, divided by 4096², by 2 and by 4.

  The same quantities for one 1024 × 1024 tile of a sample's Gram matrix, stated over the four
  [1, 32, 1024] blocks that tile is computed from, are `bunit`, `bgram`, `btotal`.
-/
import Idealize.ShloMosaic.PureOps.Ideal
import Idealize.ShloMosaic.Lib.ValueIdx

noncomputable section

open scoped BigOperators

namespace Cert.Spec

open Idealize.ShloMosaic Idealize.ShloMosaic.ValueIdx

/-- The shape of an argument array, [b, l, c, h, w]. -/
abbrev SArg : Shape := ⟨5, ![2, 4, 32, 64, 64]⟩
/-- The shape of one staged block: one sample, all channels, 1024 consecutive positions. -/
abbrev SBlk : Shape := ⟨3, ![1, 32, 1024]⟩

/-- Sample `n = 4·b + l`, channel `c`, position `p = 64·h + w`, as an index of an argument array. -/
def argIx (n : Fin 8) (c : Fin 32) (p : Fin 4096) : SArg.Idx :=
  ix5 (⟨n.val / 4, by omega⟩ : Fin 2) (⟨n.val % 4, by omega⟩ : Fin 4) c
    (⟨p.val / 64, by omega⟩ : Fin 64) (⟨p.val % 64, by omega⟩ : Fin 64)

/-- The argument array read at sample, channel, position. -/
def feat (x : FVec Ideal SArg .f32) (n : Fin 8) (c : Fin 32) (p : Fin 4096) : EReal := x (argIx n c p)

/-- The constant added to a channel vector's length (the f32 nearest to 1e-8). -/
def eps : EReal := Ideal.ofBits .f32 0x322BCC77#32

/-- The channel vector at (n, p) divided by its length plus `eps`, read at channel `c`. -/
def unit (x : FVec Ideal SArg .f32) (n : Fin 8) (c : Fin 32) (p : Fin 4096) : EReal :=
  Ideal.div (feat x n c p) (Ideal.sqrt (∑ c' : Fin 32, feat x n c' p * feat x n c' p) + eps)

/-- The inner product of the normalised channel vectors at positions `a` and `b` of sample `n`. -/
def gram (x : FVec Ideal SArg .f32) (n : Fin 8) (a b : Fin 4096) : EReal :=
  ∑ c : Fin 32, unit x n c a * unit x n c b

/-- The squared difference of the two arrays' Gram entries. -/
def sqd (xS xT : FVec Ideal SArg .f32) (n : Fin 8) (a b : Fin 4096) : EReal :=
  (gram xT n a b - gram xS n a b) * (gram xT n a b - gram xS n a b)

/-- Summed over every sample and every pair of positions. -/
def total (xS xT : FVec Ideal SArg .f32) : EReal :=
  ∑ n : Fin 8, ∑ a : Fin 4096, ∑ b : Fin 4096, sqd xS xT n a b

/-- The loss: the total divided by 4096² = 16777216, then by 2, then by 4. -/
def loss (xS xT : FVec Ideal SArg .f32) : EReal :=
  Ideal.div (Ideal.div (Ideal.div (total xS xT) (Ideal.ofBits .f32 0x4B800000#32)) (Ideal.ofBits .f32 0x40000000#32))
    (Ideal.ofBits .f32 0x40800000#32)

/-! ## One tile, over staged blocks -/

/-- A block's channel vector at row `r` divided by its length plus `eps`, read at channel `c`. -/
def bunit (x : FVec Ideal SBlk .f32) (c : Fin 32) (r : Fin 1024) : EReal :=
  Ideal.div (x (ix3 (0 : Fin 1) c r)) (Ideal.sqrt (∑ c' : Fin 32, x (ix3 (0 : Fin 1) c' r) * x (ix3 (0 : Fin 1) c' r)) + eps)

/-- The tile's Gram entry (r, q): row block `xi` against column block `xj`. -/
def bgram (xi xj : FVec Ideal SBlk .f32) (r q : Fin 1024) : EReal :=
  ∑ c : Fin 32, bunit xi c r * bunit xj c q

/-- The tile's contribution to the total: the squared differences summed over the tile, rows outermost. -/
def btotal (si sj ti tj : FVec Ideal SBlk .f32) : EReal :=
  ∑ r : Fin 1024, ∑ q : Fin 1024, (bgram ti tj r q - bgram si sj r q) * (bgram ti tj r q - bgram si sj r q)

end Cert.Spec

end
-- ==== Proof.SumTiles.lean ====
/-
  Two facts about finite sums in a commutative monoid, used to join a tile-by-tile accumulation to one whole sum.

  An 8 × 4 × 4 grid, last axis fastest, has 128 points; point `t` is sample `t / 16`, row tile `t / 4 % 4`,
  column tile `t % 4`. A tile is 1024 × 1024 positions of a 4096 × 4096 matrix. Summing a function of
  (sample, row position, column position) tile by tile over the grid is summing it over everything
  (`sum_tiles`). And a running sum started at `0 + T 0` and extended by `+ T (n + 1)` ends, at the last point,
  at the sum of all the `T t` (`accAt_last`).
-/
import Idealize.ShloMosaic.PureOps.Ideal

noncomputable section

open scoped BigOperators

namespace Cert.SumTiles

/-- The sample of grid point `t`. -/
def smp (t : Fin 128) : Fin 8 := ⟨t.val / 16, by omega⟩
/-- Its row tile. -/
def rowT (t : Fin 128) : Fin 4 := ⟨t.val / 4 % 4, by omega⟩
/-- Its column tile. -/
def colT (t : Fin 128) : Fin 4 := ⟨t.val % 4, by omega⟩
/-- Position `r` of tile `i` among the 4096 positions. -/
def pos (i : Fin 4) (r : Fin 1024) : Fin 4096 := ⟨i.val * 1024 + r.val, by omega⟩

/-- The grid points are the triples (sample, row tile, column tile): the point of a triple is
`(n * 4 + i) * 4 + j`. -/
def gridEquiv : Fin 128 ≃ Fin 8 × Fin 4 × Fin 4 where
  toFun t := (smp t, rowT t, colT t)
  invFun p := ⟨(p.1.val * 4 + p.2.1.val) * 4 + p.2.2.val, by omega⟩
  left_inv t := by
    apply Fin.ext
    simp only [smp, rowT, colT]
    omega
  right_inv p := by
    rcases p with ⟨n, i, j⟩
    refine Prod.ext (Fin.ext ?_) (Prod.ext (Fin.ext ?_) (Fin.ext ?_)) <;>
      simp only [smp, rowT, colT] <;> omega

/-- The 4096 positions are the pairs (tile, position in the tile). -/
def posEquiv : Fin 4 × Fin 1024 ≃ Fin 4096 where
  toFun p := pos p.1 p.2
  invFun a := (⟨a.val / 1024, by omega⟩, ⟨a.val % 1024, by omega⟩)
  left_inv p := by
    rcases p with ⟨i, r⟩
    refine Prod.ext (Fin.ext ?_) (Fin.ext ?_) <;> simp only [pos] <;> omega
  right_inv a := by
    apply Fin.ext
    simp only [pos]
    omega

section general

variable {M : Type*} [AddCommMonoid M]

/-- A sum over the grid of a function of (sample, row tile, column tile) is the triple sum. -/
theorem sum_grid (h : Fin 8 → Fin 4 → Fin 4 → M) :
    ∑ t : Fin 128, h (smp t) (rowT t) (colT t) = ∑ n : Fin 8, ∑ i : Fin 4, ∑ j : Fin 4, h n i j := by
  rw [Fintype.sum_equiv gridEquiv (fun t => h (smp t) (rowT t) (colT t))
    (fun p => h p.1 p.2.1 p.2.2) (fun _ => rfl)]
  rw [Fintype.sum_prod_type]
  refine Finset.sum_congr rfl fun n _ => ?_
  rw [Fintype.sum_prod_type]

/-- A sum over the positions is a sum over tiles of sums inside the tile. -/
theorem sum_pos (f : Fin 4096 → M) :
    ∑ a : Fin 4096, f a = ∑ i : Fin 4, ∑ r : Fin 1024, f (pos i r) := by
  rw [← Fintype.sum_equiv posEquiv (fun p => f (pos p.1 p.2)) f (fun _ => rfl)]
  rw [Fintype.sum_prod_type]

end general

/-- Tile by tile over the grid is everything, once. -/
theorem sum_tiles (g : Fin 8 → Fin 4096 → Fin 4096 → EReal) :
    ∑ t : Fin 128, ∑ r : Fin 1024, ∑ q : Fin 1024, g (smp t) (pos (rowT t) r) (pos (colT t) q)
      = ∑ n : Fin 8, ∑ a : Fin 4096, ∑ b : Fin 4096, g n a b := by
  refine (sum_grid (fun n i j => ∑ r : Fin 1024, ∑ q : Fin 1024, g n (pos i r) (pos j q))).trans ?_
  refine Finset.sum_congr rfl fun n _ => ?_
  -- for one sample: split the row position, then bring the column tile next to its position
  refine Eq.trans ?_ (sum_pos (fun a => ∑ b : Fin 4096, g n a b)).symm
  refine Finset.sum_congr rfl fun i _ => ?_
  rw [Finset.sum_comm]
  refine Finset.sum_congr rfl fun r _ => ?_
  exact (sum_pos (fun b => g n (pos i r) b)).symm

/-- The running sum after point `n`: started from zero at the first point, extended by one term per point. -/
def accAt (T : Fin 128 → EReal) : (n : ℕ) → n < 128 → EReal
  | 0, h => 0 + T ⟨0, h⟩
  | n + 1, h => accAt T n (Nat.lt_of_succ_lt h) + T ⟨n + 1, h⟩

/-- After point `n` the running sum is the sum of the first `n + 1` terms. -/
theorem accAt_eq (T : Fin 128 → EReal) :
    ∀ (n : ℕ) (h : n < 128), accAt T n h = ∑ t : Fin (n + 1), T ⟨t.val, by omega⟩
  | 0, h => by
    rw [accAt, zero_add, Fin.sum_univ_one]
    rfl
  | n + 1, h => by
    rw [accAt, accAt_eq T n (Nat.lt_of_succ_lt h)]
    exact (Fin.sum_univ_castSucc (fun t : Fin (n + 1 + 1) => T ⟨t.val, by omega⟩)).symm

/-- After the last point it is the sum of all the terms. -/
theorem accAt_last (T : Fin 128 → EReal) : accAt T 127 (by omega) = ∑ t : Fin 128, T t := by
  refine (accAt_eq T 127 (by omega)).trans ?_
  exact Finset.sum_congr rfl fun t _ => rfl

end Cert.SumTiles

end
-- ==== Proof.KI.Blocks.lean ====
/-
  The four blocks the body is handed at a grid point are pieces of the two argument arrays: point t is sample
  t / 16, row tile t / 4 % 4, column tile t % 4; the row blocks hold positions 1024·(row tile) + r of that sample,
  the column blocks positions 1024·(column tile) + q, all 32 channels; the arrays the windows stage are the argument
  arrays reshaped from [2, 4, 32, 64, 64] to [8, 32, 4096]. So the tile total computed from the blocks is the sum of
  the squared Gram differences over that tile of that sample.
-/
import proofs.«110113_j85057532330632_1_alg».proof.Proof.KI.Runs
import proofs.«110113_j85057532330632_1_alg».proof.Proof.Spec
import proofs.«110113_j85057532330632_1_alg».proof.Proof.SumTiles
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- A grid point as a number below 128. -/
def pt (t : Fin cfg0.N) : Fin 128 := ⟨t.val, lt_of_lt_of_eq t.isLt N_0⟩

/-! ## Blocks that are pieces of an array give that array's quantities

  If a block holds, at channel ch and row r, the array's feature at sample n, channel ch and position p r, then its
  normalised vectors are the array's at those positions, and so are the Gram entries and the tile total built
  from them. -/

section pieces

open Cert.Spec

theorem bunit_of (xb : FVec Ideal SBlk .f32) (x : FVec Ideal SArg .f32) (n : Fin 8) (p : Fin 1024 → Fin 4096)
    (h : ∀ (ch : Fin 32) (r : Fin 1024), xb (ix3 (0 : Fin 1) ch r) = feat x n ch (p r)) (ch : Fin 32) (r : Fin 1024) :
    bunit xb ch r = unit x n ch (p r) := by
  unfold bunit unit
  simp only [h]

theorem bgram_of (xi xj : FVec Ideal SBlk .f32) (x : FVec Ideal SArg .f32) (n : Fin 8) (p q : Fin 1024 → Fin 4096)
    (hi : ∀ (ch : Fin 32) (r : Fin 1024), xi (ix3 (0 : Fin 1) ch r) = feat x n ch (p r))
    (hj : ∀ (ch : Fin 32) (r : Fin 1024), xj (ix3 (0 : Fin 1) ch r) = feat x n ch (q r)) (r s : Fin 1024) :
    bgram xi xj r s = gram x n (p r) (q s) := by
  unfold bgram gram
  simp only [bunit_of xi x n p hi, bunit_of xj x n q hj]

theorem btotal_of (si sj ti tj : FVec Ideal SBlk .f32) (xS xT : FVec Ideal SArg .f32) (n : Fin 8)
    (p q : Fin 1024 → Fin 4096)
    (hsi : ∀ (ch : Fin 32) (r : Fin 1024), si (ix3 (0 : Fin 1) ch r) = feat xS n ch (p r))
    (hsj : ∀ (ch : Fin 32) (r : Fin 1024), sj (ix3 (0 : Fin 1) ch r) = feat xS n ch (q r))
    (hti : ∀ (ch : Fin 32) (r : Fin 1024), ti (ix3 (0 : Fin 1) ch r) = feat xT n ch (p r))
    (htj : ∀ (ch : Fin 32) (r : Fin 1024), tj (ix3 (0 : Fin 1) ch r) = feat xT n ch (q r)) :
    btotal si sj ti tj = ∑ r : Fin 1024, ∑ s : Fin 1024, sqd xS xT n (p r) (q s) := by
  unfold btotal sqd
  simp only [bgram_of ti tj xT n p q hti htj, bgram_of si sj xS n p q hsi hsj]

end pieces

/-! ## The arrays the windows stage are the argument arrays reshaped -/

/-- The first staged array is the first argument reshaped to [8, 32, 4096]. -/
theorem V_main_v0 (c : Dev nD) :
    (V m c main_v0 : S8x32x4096.Idx → EReal)
      = shapeCast S8x32x4096 (m ((c : Thread nD τ).loc main_arg0)) shapeCasts_S2x4x32x64x64_S8x32x4096 := by
  dsimp only [V, V0]
  simp only [hostOps0, List.flatten_cons, List.flatten_nil, List.append_nil]
  after_results
  rfl

/-- The second staged array is the second argument reshaped to [8, 32, 4096]. -/
theorem V_main_v1 (c : Dev nD) :
    (V m c main_v1 : S8x32x4096.Idx → EReal)
      = shapeCast S8x32x4096 (m ((c : Thread nD τ).loc main_arg1)) shapeCasts_S2x4x32x64x64_S8x32x4096 := by
  dsimp only [V, V0]
  simp only [hostOps0, List.flatten_cons, List.flatten_nil, List.append_nil]
  after_results
  rfl

/-- The reshape keeps the row-major position: (n, ch, p) of [8, 32, 4096] sits at (32·n + ch)·4096 + p, which in
    [2, 4, 32, 64, 64] is (n / 4, n % 4, ch, p / 64, p % 64): the array's feature at sample n, channel ch, position p. -/
theorem reshape_ix3 (x : S2x4x32x64x64.Idx → EReal) (n : Fin 8) (ch : Fin 32) (p : Fin 4096) :
    shapeCast S8x32x4096 x shapeCasts_S2x4x32x64x64_S8x32x4096 (ix3 n ch p) = Cert.Spec.feat x n ch p := by
  unfold Cert.Spec.feat
  refine shapeCast_apply x shapeCasts_S2x4x32x64x64_S8x32x4096 (ix3 n ch p) (Cert.Spec.argIx n ch p) ?_
  rw [Shape.rowMajor_val_five, Shape.rowMajor_val_three]
  have hn := n.isLt; have hc := ch.isLt; have hp := p.isLt
  show ((((n.val / 4) * 4 + n.val % 4) * 32 + ch.val) * 64 + p.val / 64) * 64 + p.val % 64 = (n.val * 32 + ch.val) * 4096 + p.val
  omega

/-! ## Where each window's block sits -/

/-- The block indices over the grid: every window's block is sample t / 16 and all channels; the row windows
    (0 and 2) take row tile t / 4 % 4, the column windows (1 and 3) column tile t % 4. -/
theorem idx_facts : ∀ t : Fin cfg0.N,
    win0_0.index t (0 : Fin 3) = t.val / 16 ∧ win0_0.index t (1 : Fin 3) = 0 ∧ win0_0.index t (2 : Fin 3) = t.val / 4 % 4
    ∧ win0_1.index t (0 : Fin 3) = t.val / 16 ∧ win0_1.index t (1 : Fin 3) = 0 ∧ win0_1.index t (2 : Fin 3) = t.val % 4
    ∧ win0_2.index t (0 : Fin 3) = t.val / 16 ∧ win0_2.index t (1 : Fin 3) = 0 ∧ win0_2.index t (2 : Fin 3) = t.val / 4 % 4
    ∧ win0_3.index t (0 : Fin 3) = t.val / 16 ∧ win0_3.index t (1 : Fin 3) = 0 ∧ win0_3.index t (2 : Fin 3) = t.val % 4 :=
  (by decide +kernel : ∀ t : Fin grid0.N, _)

/-- Window 0's block at (0, ch, r): the first argument at the point's sample, channel ch, row position. -/
theorem iblk0_ix3 (c : Dev nD) (t : Fin cfg0.N) (ch : Fin 32) (r : Fin 1024) :
    iblk m c 0 t (ix3 (0 : Fin 1) ch r)
      = Cert.Spec.feat (m ((c : Thread nD τ).loc main_arg0)) (Cert.SumTiles.smp (pt t)) ch
          (Cert.SumTiles.pos (Cert.SumTiles.rowT (pt t)) r) := by
  obtain ⟨e0, e1, e2, -⟩ := idx_facts t
  rw [← reshape_ix3, ← V_main_v0]
  unfold iblk
  show V m c main_v0 (((cfg0.win 0).blk t).view.emb (ix3 (0 : Fin 1) ch r)) = _
  refine congrArg (V m c main_v0) (funext fun a => Fin.ext ?_)
  match a with
  | ⟨0, _⟩ => show win0_0.index t (0 : Fin 3) * 1 + 1 * 0 = t.val / 16; omega
  | ⟨1, _⟩ => show win0_0.index t (1 : Fin 3) * 32 + 1 * ch.val = ch.val; omega
  | ⟨2, _⟩ => show win0_0.index t (2 : Fin 3) * 1024 + 1 * r.val = t.val / 4 % 4 * 1024 + r.val; omega

/-- Window 1's block at (0, ch, q): the first argument at the point's sample, channel ch, column position. -/
theorem iblk1_ix3 (c : Dev nD) (t : Fin cfg0.N) (ch : Fin 32) (q : Fin 1024) :
    iblk m c 1 t (ix3 (0 : Fin 1) ch q)
      = Cert.Spec.feat (m ((c : Thread nD τ).loc main_arg0)) (Cert.SumTiles.smp (pt t)) ch
          (Cert.SumTiles.pos (Cert.SumTiles.colT (pt t)) q) := by
  obtain ⟨-, -, -, e0, e1, e2, -⟩ := idx_facts t
  rw [← reshape_ix3, ← V_main_v0]
  unfold iblk
  show V m c main_v0 (((cfg0.win 1).blk t).view.emb (ix3 (0 : Fin 1) ch q)) = _
  refine congrArg (V m c main_v0) (funext fun a => Fin.ext ?_)
  match a with
  | ⟨0, _⟩ => show win0_1.index t (0 : Fin 3) * 1 + 1 * 0 = t.val / 16; omega
  | ⟨1, _⟩ => show win0_1.index t (1 : Fin 3) * 32 + 1 * ch.val = ch.val; omega
  | ⟨2, _⟩ => show win0_1.index t (2 : Fin 3) * 1024 + 1 * q.val = t.val % 4 * 1024 + q.val; omega

/-- Window 2's block at (0, ch, r): the second argument at the point's sample, channel ch, row position. -/
theorem iblk2_ix3 (c : Dev nD) (t : Fin cfg0.N) (ch : Fin 32) (r : Fin 1024) :
    iblk m c 2 t (ix3 (0 : Fin 1) ch r)
      = Cert.Spec.feat (m ((c : Thread nD τ).loc main_arg1)) (Cert.SumTiles.smp (pt t)) ch
          (Cert.SumTiles.pos (Cert.SumTiles.rowT (pt t)) r) := by
  obtain ⟨-, -, -, -, -, -, e0, e1, e2, -⟩ := idx_facts t
  rw [← reshape_ix3, ← V_main_v1]
  unfold iblk
  show V m c main_v1 (((cfg0.win 2).blk t).view.emb (ix3 (0 : Fin 1) ch r)) = _
  refine congrArg (V m c main_v1) (funext fun a => Fin.ext ?_)
  match a with
  | ⟨0, _⟩ => show win0_2.index t (0 : Fin 3) * 1 + 1 * 0 = t.val / 16; omega
  | ⟨1, _⟩ => show win0_2.index t (1 : Fin 3) * 32 + 1 * ch.val = ch.val; omega
  | ⟨2, _⟩ => show win0_2.index t (2 : Fin 3) * 1024 + 1 * r.val = t.val / 4 % 4 * 1024 + r.val; omega

/-- Window 3's block at (0, ch, q): the second argument at the point's sample, channel ch, column position. -/
theorem iblk3_ix3 (c : Dev nD) (t : Fin cfg0.N) (ch : Fin 32) (q : Fin 1024) :
    iblk m c 3 t (ix3 (0 : Fin 1) ch q)
      = Cert.Spec.feat (m ((c : Thread nD τ).loc main_arg1)) (Cert.SumTiles.smp (pt t)) ch
          (Cert.SumTiles.pos (Cert.SumTiles.colT (pt t)) q) := by
  obtain ⟨-, -, -, -, -, -, -, -, -, e0, e1, e2⟩ := idx_facts t
  rw [← reshape_ix3, ← V_main_v1]
  unfold iblk
  show V m c main_v1 (((cfg0.win 3).blk t).view.emb (ix3 (0 : Fin 1) ch q)) = _
  refine congrArg (V m c main_v1) (funext fun a => Fin.ext ?_)
  match a with
  | ⟨0, _⟩ => show win0_3.index t (0 : Fin 3) * 1 + 1 * 0 = t.val / 16; omega
  | ⟨1, _⟩ => show win0_3.index t (1 : Fin 3) * 32 + 1 * ch.val = ch.val; omega
  | ⟨2, _⟩ => show win0_3.index t (2 : Fin 3) * 1024 + 1 * q.val = t.val % 4 * 1024 + q.val; omega

/-- The tile total over the blocks at point `t` is the sum over that tile of the arrays' squared Gram differences. -/
theorem btotal_blocks (c : Dev nD) (t : Fin cfg0.N) :
    Cert.Spec.btotal (iblk m c 0 t) (iblk m c 1 t) (iblk m c 2 t) (iblk m c 3 t)
      = ∑ r : Fin 1024, ∑ q : Fin 1024,
          Cert.Spec.sqd (m ((c : Thread nD τ).loc main_arg0)) (m ((c : Thread nD τ).loc main_arg1))
            (Cert.SumTiles.smp (pt t)) (Cert.SumTiles.pos (Cert.SumTiles.rowT (pt t)) r) (Cert.SumTiles.pos (Cert.SumTiles.colT (pt t)) q) :=
  btotal_of _ _ _ _ _ _ _ _ _ (iblk0_ix3 m c t) (iblk1_ix3 m c t) (iblk2_ix3 m c t) (iblk3_ix3 m c t)

end Cert.KernelIdeal.Fr

end
-- ==== Proof.KI.Exit.lean ====
/-
  What the buffers hold when the region is left and after the divisions that follow it, and what the whole run ends in.
-/
import proofs.«110113_j85057532330632_1_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffer contents at the region's exit: as at entry, but for the region's result array, which holds what the
    write-backs left. -/
def Wexit (dats : (p : Fin 1) → (c : Dev nD) → Dat τ (Elt F) Unit ℕ (UR sig nD τ) ℕ (cfgs p) c) (c : Dev nD) : Valuation τ sig (Elt F) :=
  Function.update (V0 m c) (Proc.devRef .tc main_v2) ((dats 0 c).arrAt 4 cfg0.N)

/-- A TensorCore buffer's contents after the divisions that follow the region. -/
def afterT (dats : (p : Fin 1) → (c : Dev nD) → Dat τ (Elt F) Unit ℕ (UR sig nD τ) ℕ (cfgs p) c) (c : Dev nD) (b : Ref sig .tc) : Buf (Elt F) ((c : Thread nD τ).loc b) :=
  StableHlo.after hostOps1 (Wexit m dats c) (Proc.devRef .tc b)

/-- What the run ends in: every window's array at what the proof data compute for it after all write-backs, every other
    unscoped buffer at what the divisions leave. -/
def RunPost (dats : (p : Fin 1) → (c : Dev nD) → Dat τ (Elt F) Unit ℕ (UR sig nD τ) ℕ (cfgs p) c) (r : PUnit × MemSt nD τ sig (Elt F)) : Prop :=
  ∀ c : Dev nD, (∀ w, r.2.mem (((cfgs 0).spec w).arr.view.loc (c.tc : Thread nD τ)) = (dats 0 c).arrAt w (cfgs 0).N)
    ∧ ∀ b ∈ Pipeline.restRefs sig spec0, r.2.mem ((c.tc : Thread nD τ).loc b) = afterT m dats c b

end Cert.KernelIdeal.Fr

end
-- ==== Proof.KI.Tail.lean ====
/-
  The divisions after the region, read off: they write neither argument array, and the program's result is the
  region's one result reshaped to a scalar and divided by 16777216, by 2 and by 4.
-/
import proofs.«110113_j85057532330632_1_alg».proof.Proof.KI.Exit
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arg0_rest : main_arg0 ∈ Pipeline.restRefs sig spec0 := by decide
theorem arg1_rest : main_arg1 ∈ Pipeline.restRefs sig spec0 := by decide
theorem v6_rest : main_v6 ∈ Pipeline.restRefs sig spec0 := by decide

/-- No operation around the region writes the first argument array: it ends as launched. -/
theorem afterT_arg0 (dats : (p : Fin 1) → (c : Dev nD) → Dat τ (Elt F) Unit ℕ (UR sig nD τ) ℕ (cfgs p) c) (c : Dev nD) :
    afterT m dats c main_arg0 = m ((c : Thread nD τ).loc main_arg0) := by
  unfold afterT
  refine (StableHlo.after_of_forall_not_mem (b := Proc.devRef .tc main_arg0) _ _ (List.forall_iff_forall_mem.mp (by
    simp only [hostOps1, List.Forall, StableHlo.nullary_writes, StableHlo.binary_writes, StableHlo.reshape_writes,
      Finset.mem_singleton]
    repeat' apply And.intro
    all_goals exact StableHlo.devRef_ne_of_ne (by decide)))).trans ?_
  unfold Wexit
  rw [Function.update_of_ne (StableHlo.devRef_ne_of_ne (by decide))]
  exact V_main_arg0 m c

/-- Nor the second. -/
theorem afterT_arg1 (dats : (p : Fin 1) → (c : Dev nD) → Dat τ (Elt F) Unit ℕ (UR sig nD τ) ℕ (cfgs p) c) (c : Dev nD) :
    afterT m dats c main_arg1 = m ((c : Thread nD τ).loc main_arg1) := by
  unfold afterT
  refine (StableHlo.after_of_forall_not_mem (b := Proc.devRef .tc main_arg1) _ _ (List.forall_iff_forall_mem.mp (by
    simp only [hostOps1, List.Forall, StableHlo.nullary_writes, StableHlo.binary_writes, StableHlo.reshape_writes,
      Finset.mem_singleton]
    repeat' apply And.intro
    all_goals exact StableHlo.devRef_ne_of_ne (by decide)))).trans ?_
  unfold Wexit
  rw [Function.update_of_ne (StableHlo.devRef_ne_of_ne (by decide))]
  exact V_main_arg1 m c

/-- The program's result: the region's result array after its write-backs, as a scalar, divided three times. -/
theorem afterT_v6 (dats : (p : Fin 1) → (c : Dev nD) → Dat τ (Elt F) Unit ℕ (UR sig nD τ) ℕ (cfgs p) c) (c : Dev nD) :
    (afterT m dats c main_v6 : (⟨S_, .f32⟩ : BufTy).Contents (Elt F))
      = Host.divf (Host.divf (Host.divf (shapeCast S_ ((dats 0 c).arrAt 4 cfg0.N : (⟨S1x1, .f32⟩ : BufTy).Contents (Elt F)) shapeCasts_S1x1_S_)
          (constant S_ .f32 0x4B800000#32)) (constant S_ .f32 0x40000000#32)) (constant S_ .f32 0x40800000#32) := by
  unfold afterT
  show StableHlo.after hostOps1 (Wexit m dats c) (Proc.devRef .tc main_v6) = _
  after_results
  unfold Wexit
  rw [Function.update_self]
  rfl

end Cert.KernelIdeal.Fr

end
-- ==== Proof.TileValue.lean ====
/-
  What one grid point adds to the accumulator: the kernel body's arithmetic on its four staged blocks, read at
  the accumulator's one element, is the incoming value plus the tile's sum of squared Gram differences
  (Spec.lean's `btotal`); and the value the first point resets the accumulator to is zero.
-/
import proofs.«110113_j85057532330632_1_alg».proof.Proof.Gen.KernelIdeal.Skeleton
import proofs.«110113_j85057532330632_1_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.TileValue

open Cert.KernelIdeal Cert.KernelIdeal.Gen Idealize.ShloMosaic Idealize.ShloMosaic.ValueIdx

/-- The sum over the 32 channels of a [32,1024] array, read at column r. -/
theorem colSum_apply (sq : FVec Ideal S32x1024 .f32) (h : S32x1024.Reduces [0] S1024) (hφ : FKind.Formats .f32)
    (hacc : (0x00000000#32 : BitVec 32) = FKind.add.neutral .f32 hφ) (r : Fin 1024) :
    multiReduction (F := Ideal) .add [0] S1024 sq 0x00000000#32 h hφ hacc (ix1 r) = ∑ c : Fin 32, sq (ix2 c r) := by
  refine (Ideal.multiReduction_add_single sq 0x00000000#32 h hφ hacc (ix1 r)).trans ?_
  refine Finset.sum_congr rfl fun k _ => congrArg sq ?_
  funext a
  match a with
  | ⟨0, _⟩ => rfl
  | ⟨1, _⟩ => rfl

/-- A [32,1024] array divided, column by column, by the square root of the column sums of a second array plus eps. -/
def colNorm (x2 sq : FVec Ideal S32x1024 .f32) : FVec Ideal S32x1024 .f32 :=
  divf x2 (broadcastTo S32x1024 (addf (sqrt (shapeCast S1x1024 (multiReduction .add [0] S1024 sq 0x00000000#32 reduces_S32x1024_S1024 (.inl rfl) rfl) shapeCasts_S1024_S1x1024)) (broadcast S1x1024 (Scalar.ofBits .f32 0x322BCC77#32))) broadcasts_S1x1024_S32x1024)

/-- Read at channel c and column r: the first array's entry over the square root of the second array's column sum plus eps. -/
theorem colNorm_apply (x2 sq : FVec Ideal S32x1024 .f32) (c : Fin 32) (r : Fin 1024) :
    colNorm x2 sq (ix2 c r) = Ideal.div (x2 (ix2 c r)) (Ideal.sqrt (∑ c' : Fin 32, sq (ix2 c' r)) + Cert.Spec.eps) := by
  unfold colNorm
  rw [divf_apply, broadcastTo_1b_ab_apply, addf_apply]
  show Ideal.div _ (Ideal.sqrt (shapeCast S1x1024 _ shapeCasts_S1024_S1x1024 (ix2 (0 : Fin 1) r)) + _) = _
  rw [shapeCast_a_1a_apply]
  exact congrArg (fun t => Ideal.div (x2 (ix2 c r)) (Ideal.sqrt t + Cert.Spec.eps)) (colSum_apply sq _ _ _ r)

/-- The first block's payload is that normalisation of the block's [32,1024] reshape by its own squares. -/
theorem pay3_unfold (x : Vec Ideal S1x32x1024 .f32) :
    k0_pay3 (F := Ideal) x = colNorm (shapeCast S32x1024 x shapeCasts_S1x32x1024_S32x1024) (mulf (shapeCast S32x1024 x shapeCasts_S1x32x1024_S32x1024) (shapeCast S32x1024 x shapeCasts_S1x32x1024_S32x1024)) := rfl

/-- So at (c, r) it is the block's normalised channel vector at row r, read at channel c. -/
theorem pay3_apply (x : Vec Ideal S1x32x1024 .f32) (c : Fin 32) (r : Fin 1024) :
    k0_pay3 (F := Ideal) x (ix2 c r) = Cert.Spec.bunit x c r := by
  rw [pay3_unfold, colNorm_apply]
  unfold Cert.Spec.bunit
  simp only [mulf_apply, shapeCast_1ab_ab_apply]

/-- The second block's payload is the same function of its block. -/
theorem pay4_apply (x : Vec Ideal S1x32x1024 .f32) (c : Fin 32) (r : Fin 1024) :
    k0_pay4 (F := Ideal) x (ix2 c r) = Cert.Spec.bunit x c r := pay3_apply x c r

/-- The third block arrives as its reshape and the reshape's square; normalising the one by the other gives the same. -/
theorem pay56_apply (x : Vec Ideal S1x32x1024 .f32) (c : Fin 32) (r : Fin 1024) :
    colNorm (k0_pay5 (F := Ideal) x) (k0_pay6 (F := Ideal) x) (ix2 c r) = Cert.Spec.bunit x c r := pay3_apply x c r

/-! ## The Gram tile

The contraction runs over axis 0 of both operands (the 32 channels); the left operand's axis 1 is the result's row,
the right operand's axis 1 its column. -/

theorem lhs_gram_0 (i : S1024x1024.Idx) (q : dot_S32x1024_S32x1024_S1024x1024_0_0_1_1_n_n.contr.Idx) :
    (dot_S32x1024_S32x1024_S1024x1024_0_0_1_1_n_n.lhsIdx i q 0).val = (q ⟨0, by decide⟩).val :=
  dot_S32x1024_S32x1024_S1024x1024_0_0_1_1_n_n.lhsIdx_val_of_single rfl i q
theorem lhs_gram_1 (i : S1024x1024.Idx) (q : dot_S32x1024_S32x1024_S1024x1024_0_0_1_1_n_n.contr.Idx) :
    (dot_S32x1024_S32x1024_S1024x1024_0_0_1_1_n_n.lhsIdx i q 1).val = (i 0).val := by
  unfold DotDims.lhsIdx
  rw [dif_neg (show ¬(1 : Fin S32x1024.rank) ∈ dot_S32x1024_S32x1024_S1024x1024_0_0_1_1_n_n.lhsBatch by decide), dif_pos (show (1 : Fin S32x1024.rank) ∈ dot_S32x1024_S32x1024_S1024x1024_0_0_1_1_n_n.lhsNonContracting by decide)]
  rfl
theorem rhs_gram_0 (i : S1024x1024.Idx) (q : dot_S32x1024_S32x1024_S1024x1024_0_0_1_1_n_n.contr.Idx) :
    (dot_S32x1024_S32x1024_S1024x1024_0_0_1_1_n_n.rhsIdx i q 0).val = (q ⟨0, by decide⟩).val :=
  dot_S32x1024_S32x1024_S1024x1024_0_0_1_1_n_n.rhsIdx_val_of_single rfl i q
theorem rhs_gram_1 (i : S1024x1024.Idx) (q : dot_S32x1024_S32x1024_S1024x1024_0_0_1_1_n_n.contr.Idx) :
    (dot_S32x1024_S32x1024_S1024x1024_0_0_1_1_n_n.rhsIdx i q 1).val = (i 1).val := by
  unfold DotDims.rhsIdx
  rw [dif_neg (show ¬(1 : Fin S32x1024.rank) ∈ dot_S32x1024_S32x1024_S1024x1024_0_0_1_1_n_n.rhsBatch by decide), dif_pos (show (1 : Fin S32x1024.rank) ∈ dot_S32x1024_S32x1024_S1024x1024_0_0_1_1_n_n.rhsNonContracting by decide)]
  rfl

/-- The product of the transpose of one [32,1024] array with another, into a zero accumulator. -/
def gramT (L R : FVec Ideal S32x1024 .f32) : FVec Ideal S1024x1024 .f32 :=
  matmul dot_S32x1024_S32x1024_S1024x1024_0_0_1_1_n_n none (truncf .bf16 L bitsLt_bf16_f32) (truncf .bf16 R bitsLt_bf16_f32) (constant S1024x1024 .f32 0x00000000#32)

/-- Entry (r, q) is the inner product over the channels of the left array's column r and the right array's column q
    (the narrowing to bf16 changes nothing over the extended reals). -/
theorem gramT_apply (L R : FVec Ideal S32x1024 .f32) (r q : Fin 1024) :
    gramT L R (ix2 r q) = ∑ c : Fin 32, L (ix2 c r) * R (ix2 c q) := by
  unfold gramT
  simp only [matmul]
  rw [Ideal.matmul_constant_zero_apply, ← Equiv.sum_comp (contrEquiv1 dot_S32x1024_S32x1024_S1024x1024_0_0_1_1_n_n 32 rfl rfl).symm]
  refine Finset.sum_congr rfl fun k _ => ?_
  have hk := contrEquiv1_symm_val dot_S32x1024_S32x1024_S1024x1024_0_0_1_1_n_n 32 rfl rfl k
  have el : dot_S32x1024_S32x1024_S1024x1024_0_0_1_1_n_n.lhsIdx (ix2 r q) ((contrEquiv1 dot_S32x1024_S32x1024_S1024x1024_0_0_1_1_n_n 32 rfl rfl).symm k) = ix2 k r := funext fun a => Fin.ext (by
    match a with
    | ⟨0, _⟩ => exact (lhs_gram_0 _ _).trans hk
    | ⟨1, _⟩ => exact lhs_gram_1 _ _)
  have er : dot_S32x1024_S32x1024_S1024x1024_0_0_1_1_n_n.rhsIdx (ix2 r q) ((contrEquiv1 dot_S32x1024_S32x1024_S1024x1024_0_0_1_1_n_n 32 rfl rfl).symm k) = ix2 k q := funext fun a => Fin.ext (by
    match a with
    | ⟨0, _⟩ => exact (rhs_gram_0 _ _).trans hk
    | ⟨1, _⟩ => exact rhs_gram_1 _ _)
  rw [el, er]
  rfl

/-! ## The two sums over the tile -/

/-- The sum along axis 1 of a [1024,1024] array, read at row r. -/
theorem rowSum_apply (M : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 M 0x00000000#32 h hφ hacc (ix1 r) = ∑ q : Fin 1024, M (ix2 r q) := by
  refine (Ideal.multiReduction_add_single M 0x00000000#32 h hφ hacc (ix1 r)).trans ?_
  refine Finset.sum_congr rfl fun k _ => congrArg M ?_
  funext a
  match a with
  | ⟨0, _⟩ => rfl
  | ⟨1, _⟩ => rfl

/-- The sum along axis 0 of a [1024,1] array. -/
theorem unitColSum_apply (v : FVec Ideal S1024x1 .f32) (h : S1024x1.Reduces [0] S1) (hφ : FKind.Formats .f32)
    (hacc : (0x00000000#32 : BitVec 32) = FKind.add.neutral .f32 hφ) (u : Fin 1) :
    multiReduction (F := Ideal) .add [0] S1 v 0x00000000#32 h hφ hacc (ix1 u) = ∑ r : Fin 1024, v (ix2 r u) := by
  refine (Ideal.multiReduction_add_single v 0x00000000#32 h hφ hacc (ix1 u)).trans ?_
  refine Finset.sum_congr rfl fun k _ => congrArg v ?_
  funext a
  match a with
  | ⟨0, _⟩ => rfl
  | ⟨1, _⟩ => rfl

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every entry of a [1024,1024] array summed, rows outermost, as a [1,1] array. -/
def tileSum (M : FVec Ideal S1024x1024 .f32) : FVec Ideal S1x1 .f32 :=
  shapeCast S1x1 (multiReduction .add [0] S1 (shapeCast S1024x1 (multiReduction .add [1] S1024 M 0x00000000#32 reduces_S1024x1024_S1024 (.inl rfl) rfl) shapeCasts_S1024_S1024x1) 0x00000000#32 reduces_S1024x1_S1 (.inl rfl) rfl) shapeCasts_S1_S1x1

/-- At its one index it is the double sum over rows and columns. -/
theorem tileSum_apply (M : FVec Ideal S1024x1024 .f32) (u w : Fin 1) :
    tileSum M (ix2 u w) = ∑ r : Fin 1024, ∑ q : Fin 1024, M (ix2 r q) := by
  unfold tileSum
  rw [shapeCast_a_1a_apply]
  refine (unitColSum_apply _ _ _ _ w).trans ?_
  refine Finset.sum_congr rfl fun r _ => ?_
  rw [shapeCast_a_a1_apply]
  exact rowSum_apply M _ _ _ r

/-- The body's arithmetic in these words: the squared difference of the two Gram tiles (second pair minus first),
    summed over the tile and added to the loaded accumulator. -/
theorem pay1_unfold (v21 v31 v33 v34 : FVec Ideal S32x1024 .f32) (v42 : Vec Ideal S1x32x1024 .f32) (v64 : Vec Ideal S1x1 .f32) :
    k0_pay1 (F := Ideal) v21 v31 v33 v34 v42 v64
      = shapeCast S1x1 (addf v64 (tileSum (mulf
          (subf (gramT (colNorm v33 v34) (k0_pay3 (F := Ideal) v42)) (gramT v21 v31))
          (subf (gramT (colNorm v33 v34) (k0_pay3 (F := Ideal) v42)) (gramT v21 v31))))) shapeCasts_S1x1_S1x1 := rfl

/-- The stored accumulator: the loaded one plus the tile's total. `si`, `sj` are the first array's row and column
    blocks, `ti`, `tj` the second array's. -/
theorem pay1_eq (si sj ti tj : Vec Ideal S1x32x1024 .f32) (acc : Vec Ideal S1x1 .f32) :
    k0_pay1 (F := Ideal) (k0_pay3 si) (k0_pay4 sj) (k0_pay5 ti) (k0_pay6 ti) tj acc
      = fun _ => acc (ix2 (0 : Fin 1) (0 : Fin 1)) + Cert.Spec.btotal si sj ti tj := by
  rw [pay1_unfold, shapeCast_self]
  funext j
  obtain ⟨u, w, rfl⟩ : ∃ (u w : Fin 1), j = ix2 u w := ⟨j 0, j 1, eq_ix2 j⟩
  obtain rfl : u = 0 := Subsingleton.elim _ _
  obtain rfl : w = 0 := Subsingleton.elim _ _
  rw [addf_apply, tileSum_apply]
  unfold Cert.Spec.btotal Cert.Spec.bgram
  refine congrArg (acc (ix2 (0 : Fin 1) (0 : Fin 1)) + ·) ?_
  refine Finset.sum_congr rfl fun r _ => Finset.sum_congr rfl fun q _ => ?_
  rw [mulf_apply, subf_apply, gramT_apply, gramT_apply]
  simp only [pay3_apply, pay4_apply, pay56_apply]

/-- The reset value is zero. -/
theorem pay2_eq : k0_pay2 (F := Ideal) = fun _ => (0 : EReal) := by
  show shapeCast S1x1 (broadcast S1x1 (Scalar.ofBits (F := Ideal) .f32 0x00000000#32)) shapeCasts_S1x1_S1x1 = _
  rw [shapeCast_self]
  funext j
  exact Ideal.ofBits_zero_f32

end Cert.KernelIdeal.TileValue

end
-- ==== Proof.KI.Value.lean ====
/-
  The value the idealized kernel's run leaves in its result.

  The accumulator after grid point n is the running sum of the tile totals of points 0 … n, started from zero
  (by induction on n: the first point resets and adds, every later point adds to what the point before left). The
  region's result array is written back once, at the last point, with the accumulator's value there: the sum of all
  128 tile totals, which is the sum over every sample and every pair of positions of the squared Gram differences.
  The three divisions after the region make it the loss.
-/
import proofs.«110113_j85057532330632_1_alg».proof.Proof.KI.Pieces
import proofs.«110113_j85057532330632_1_alg».proof.Proof.KI.Blocks
import proofs.«110113_j85057532330632_1_alg».proof.Proof.KI.Exit
import proofs.«110113_j85057532330632_1_alg».proof.Proof.KI.Tail
import proofs.«110113_j85057532330632_1_alg».proof.Proof.TileValue
import proofs.«110113_j85057532330632_1_alg».proof.Proof.SumTiles
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

open Cert.SumTiles (accAt)

/-- A number below 128 as a grid point. -/
def npt (t : Fin 128) : Fin cfg0.N := ⟨t.val, lt_of_lt_of_eq t.isLt N_0.symm⟩

/-- The tile total of grid point `t`: the squared Gram differences summed over the tile, from the four blocks there. -/
def T (c : Dev nD) (t : Fin 128) : EReal :=
  Cert.Spec.btotal (iblk m c 0 (npt t)) (iblk m c 1 (npt t)) (iblk m c 2 (npt t)) (iblk m c 3 (npt t))

theorem lt128 {n : ℕ} (hn : n < cfg0.N) : n < 128 := lt_of_lt_of_eq hn N_0

/-- The accumulator after point `n` is the running sum of the tile totals up to `n`. -/
theorem acc_eq (c : Dev nD) : ∀ (n : ℕ) (hn : n < cfg0.N), (outsAt0 m c n hn).2 = fun _ => accAt (T m c) n (lt128 hn) := by
  intro n
  induction n with
  | zero =>
    intro hn
    have h1 : ¬ ((⟨0, hn⟩ : Fin cfg0.N).val = 127) := fun h => absurd h (by decide : ¬ (0 : ℕ) = 127)
    rw [show outsAt0 m c 0 hn = _ from outsAt0_A m c ⟨0, hn⟩ rfl h1]
    dsimp only
    rw [sout0_A_0_eq, Cert.KernelIdeal.TileValue.pay1_eq, Cert.KernelIdeal.TileValue.pay2_eq]
    rfl
  | succ n ih =>
    intro hn
    have h0 : ¬ ((⟨n + 1, hn⟩ : Fin cfg0.N).val = 0) := Nat.succ_ne_zero n
    have hprev := ih (Nat.lt_of_succ_lt hn)
    by_cases h1 : n + 1 = 127
    · rw [show outsAt0 m c (n + 1) hn = _ from outsAt0_C m c ⟨n + 1, hn⟩ h0 h1]
      dsimp only
      rw [sout0_C_0_eq, Cert.KernelIdeal.TileValue.pay1_eq]
      funext x
      show (outsAt0 m c n (Nat.lt_of_succ_lt hn)).2 (ix2 0 0) + _ = accAt (T m c) n _ + T m c ⟨n + 1, _⟩
      rw [hprev]; rfl
    · rw [show outsAt0 m c (n + 1) hn = _ from outsAt0_B m c ⟨n + 1, hn⟩ h0 h1]
      dsimp only
      rw [sout0_B_0_eq, Cert.KernelIdeal.TileValue.pay1_eq]
      funext x
      show (outsAt0 m c n (Nat.lt_of_succ_lt hn)).2 (ix2 0 0) + _ = accAt (T m c) n _ + T m c ⟨n + 1, _⟩
      rw [hprev]; rfl

/-- At the last point the output window's buffer receives the accumulator's value. -/
theorem out_eq_acc (c : Dev nD) (t : Fin cfg0.N) (h1 : t.val = 127) :
    (outsAt0 m c t.val t.isLt).1 = (outsAt0 m c t.val t.isLt).2 := by
  rw [outsAt0_C m c t (by omega) h1]
  dsimp only
  rw [out0_C_4_eq, sout0_C_0_eq]

/-- All the tile totals together are the total over every sample and every pair of positions. -/
theorem sum_T (c : Dev nD) :
    ∑ t : Fin 128, T m c t = Cert.Spec.total (m ((c : Thread nD τ).loc main_arg0)) (m ((c : Thread nD τ).loc main_arg1)) := by
  unfold Cert.Spec.total
  rw [← Cert.SumTiles.sum_tiles (Cert.Spec.sqd (m ((c : Thread nD τ).loc main_arg0)) (m ((c : Thread nD τ).loc main_arg1)))]
  refine Finset.sum_congr rfl fun t _ => ?_
  unfold T
  rw [btotal_blocks]
  rfl

theorem accAt_congr (T' : Fin 128 → EReal) {n n' : ℕ} (h : n = n') (hn : n < 128) (hn' : n' < 128) :
    accAt T' n hn = accAt T' n' hn' := by
  subst h; rfl

/-- What the last point leaves in the output window's buffer: the total. -/
theorem out_last (c : Dev nD) (t : Fin cfg0.N) (h1 : t.val = 127) :
    (outsAt0 m c t.val t.isLt).1 = fun _ => Cert.Spec.total (m ((c : Thread nD τ).loc main_arg0)) (m ((c : Thread nD τ).loc main_arg1)) := by
  rw [out_eq_acc m c t h1, acc_eq m c t.val t.isLt]
  funext x
  rw [← sum_T m c, ← Cert.SumTiles.accAt_last (T m c)]
  exact accAt_congr (T m c) h1 _ _

/-- The result array has one element: all its indices are equal. -/
instance : Subsingleton S1x1.Idx :=
  ⟨fun a b => by
    have h0 : a 0 = b 0 := Fin.ext (by have := idx2_lt0 a; have := idx2_lt0 b; omega)
    have h1 : a 1 = b 1 := Fin.ext (by have := idx2_lt1 a; have := idx2_lt1 b; omega)
    rw [eq_ix2 a, eq_ix2 b, h0, h1]⟩

/-- The last grid point. -/
def tLast : Fin cfg0.N := ⟨127, by rw [show cfg0.N = 128 from N_0]; omega⟩

theorem flush_last : (cfg0.win 4).flush tLast = true := (flush0_4 tLast).mpr rfl

/-- Only the last point writes the result array back. -/
theorem flush_only_last (t : Fin cfg0.N) (h : (cfg0.win 4).flush t = true) : t = tLast := by
  have h' := (flush0_4 t).mp h
  have hN : t.val < 128 := lt128 t.isLt
  exact Fin.ext (by show t.val = 127; omega)

/-- After the run the region's result array holds the total. -/
theorem v2_final (c : Dev nD) (i : S1x1.Idx) :
    ((dats m 0 c).arrAt 4 cfg0.N : (⟨S1x1, .f32⟩ : BufTy).Contents (Elt Ideal)) i
      = Cert.Spec.total (m ((c : Thread nD τ).loc main_arg0)) (m ((c : Thread nD τ).loc main_arg1)) := by
  have hd : ∀ t t' : Fin cfg0.N, (cfg0.win 4).flush t = true → (cfg0.win 4).flush t' = true → t ≠ t' →
      Disjoint ((cfg0.win 4).blk t).view.set ((cfg0.win 4).blk t').view.set :=
    fun t t' h h' hne => absurd ((flush_only_last t h).trans (flush_only_last t' h').symm) hne
  have h := (dats m 0 c).arrAt_emb_eq_flushed 4 hd tLast flush_last (ix2 (0 : Fin 1) (0 : Fin 1))
  have hi : i = ((cfg0.win 4).blk tLast).view.emb (ix2 (0 : Fin 1) (0 : Fin 1)) := Subsingleton.elim _ _
  rw [hi]
  refine h.trans ?_
  show cast _ ((dats m 0 c).after 4 tLast (ix2 (0 : Fin 1) (0 : Fin 1))) = _
  rw [after0_4, out_last m c tLast rfl]
  exact cast_eq _ _

/-- The program's result is the loss of the two argument arrays. -/
theorem result_eq (c : Dev nD) :
    (afterT m (dats m) c main_v6 : (⟨S_, .f32⟩ : BufTy).Contents (Elt Ideal))
      = fun _ => Cert.Spec.loss (m ((c : Thread nD τ).loc main_arg0)) (m ((c : Thread nD τ).loc main_arg1)) := by
  rw [afterT_v6]
  funext j
  simp only [Host.divf, constant, Ideal.hostDivf_def, Ideal.ofBits_def]
  have hk : (S1x1.rowMajor (ix2 (0 : Fin 1) (0 : Fin 1))).val = (S_.rowMajor j).val := by
    have h1 : (S1x1.rowMajor (ix2 (0 : Fin 1) (0 : Fin 1))).val < 1 := (S1x1.rowMajor _).isLt
    have h2 : (S_.rowMajor j).val < 1 := (S_.rowMajor j).isLt
    omega
  rw [shapeCast_apply _ shapeCasts_S1x1_S_ j (ix2 (0 : Fin 1) (0 : Fin 1)) hk, v2_final m c]
  rfl

end Cert.KernelIdeal.Fr

end
-- ==== Proof.KI.Launch.lean ====
/-
  The launch: from the body obligation at every grid point to the run of the whole program.

  Two pairs of input windows read one array each, so each of those arrays is held by its two windows at half
  shares, the output array by its window whole. Entering the region splits each shared array's buffer into its two
  halves; after the last point the halves are joined again (an input array is never written, so both windows end
  holding the entry contents), the output array's buffer and the buffers that bypass the region are held whole, the
  three divisions run over them, and everything is read back against the final state.
-/
import proofs.«110113_j85057532330632_1_alg».proof.Proof.KI.Exit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays two windows share -/

/-- The windows' arrays are three buffers: the two reshaped arguments and the result. -/
theorem arr_image : Finset.univ.image (Pipeline.arrRef spec0) = [main_v0, main_v1, main_v2].toFinset := by decide

/-- Those three buffers, each held whole, one by one. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v1) ↦{fullShare} W main_v1)
          ∗ (((c.tc : Thread nD τ).loc main_v2) ↦{fullShare} W main_v2)) := by
  unfold Pipeline.arrBufs
  exact bigSep_eq_bigSepL_of_eq [main_v0, main_v1, main_v2] arr_image (by decide) _

/-- The five windows' holdings — each shared input array as its two windows' halves, the output array whole — are the
    three buffers held whole, at contents that agree window by window: a whole share is its left and right halves. -/
theorem arrays_eq_arrBufs {c : Dev nD} (dat : Dat τ (Elt F) Unit ℕ (UR sig nD τ) ℕ cfg0 c)
    (hq : dat.q 0 = fullShare.left ∧ dat.q 1 = fullShare.right ∧ dat.q 2 = fullShare.left ∧ dat.q 3 = fullShare.right)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    (dat.arrays Fw : sProp 𝕄) = Pipeline.arrBufs spec0 c W := by
  have s0 : dat.share 0 = fullShare.left := by unfold Dat.share; rw [if_neg (by decide)]; exact hq.1
  have s1 : dat.share 1 = fullShare.right := by unfold Dat.share; rw [if_neg (by decide)]; exact hq.2.1
  have s2 : dat.share 2 = fullShare.left := by unfold Dat.share; rw [if_neg (by decide)]; exact hq.2.2.1
  have s3 : dat.share 3 = fullShare.right := by unfold Dat.share; rw [if_neg (by decide)]; exact hq.2.2.2
  have s4 : dat.share 4 = fullShare := by unfold Dat.share; rw [if_pos (by decide)]
  rw [arrBufs_chain]
  unfold Dat.arrays
  rw [bigSep_W0]
  rw [(arr_whole0 0).set_eq_univ, (arr_whole0 2).set_eq_univ, (arr_whole0 4).set_eq_univ,
    s0, s1, s2, s3, s4, hF 0, hF 1, hF 2, hF 3, hF 4]
  refine Entails.antisymm (show (_ : sProp 𝕄) ⊢ _ from ?_) (show (_ : sProp 𝕄) ⊢ _ from ?_)
  · iintro ⟨H0, H1, H2, H3, H4⟩
    isplitl [H0 H1]
    · iapply (pointsTo_share (PosShare.mem_left_op_right fullShare)).2
      isplitl [H0]; · iexact H0
      iexact H1
    isplitl [H2 H3]
    · iapply (pointsTo_share (PosShare.mem_left_op_right fullShare)).2
      isplitl [H2]; · iexact H2
      iexact H3
    iexact H4
  · iintro ⟨H0, H1, H2⟩
    ihave H0 := (pointsTo_share (PosShare.mem_left_op_right fullShare)).1 $$ H0
    ihave H1 := (pointsTo_share (PosShare.mem_left_op_right fullShare)).1 $$ H1
    icases H0 with ⟨H0l, H0r⟩
    icases H1 with ⟨H1l, H1r⟩
    isplitl [H0l]; · iexact H0l
    isplitl [H0r]; · iexact H0r
    isplitl [H1l]; · iexact H1l
    isplitl [H1r]; · iexact H1r
    iexact H2

/-- At the region's exit every window's array holds the exit contents: an input array is never written, so it is as at
    entry; the output array is what the write-backs left. -/
theorem Wexit_arr (dats : (p : Fin 1) → (c : Dev nD) → Dat τ (Elt F) Unit ℕ (UR sig nD τ) ℕ (cfgs p) c)
    (hA : ∀ c w, (dats 0 c).A w = V m c (Pipeline.arrRef spec0 w)) (c : Dev nD) :
    ∀ w : Fin 5, (dats 0 c).arrAt w cfg0.N = Wexit m dats c (Proc.devRef .tc (Pipeline.arrRef spec0 w))
  | 0 => by rw [(dats 0 c).arrAt_in 0 rfl, hA c 0]; exact (Function.update_of_ne (StableHlo.devRef_ne_of_ne (by decide)) _ _).symm
  | 1 => by rw [(dats 0 c).arrAt_in 1 rfl, hA c 1]; exact (Function.update_of_ne (StableHlo.devRef_ne_of_ne (by decide)) _ _).symm
  | 2 => by rw [(dats 0 c).arrAt_in 2 rfl, hA c 2]; exact (Function.update_of_ne (StableHlo.devRef_ne_of_ne (by decide)) _ _).symm
  | 3 => by rw [(dats 0 c).arrAt_in 3 rfl, hA c 3]; exact (Function.update_of_ne (StableHlo.devRef_ne_of_ne (by decide)) _ _).symm
  | 4 => by
    show _ = Function.update (V0 m c) (Proc.devRef .tc main_v2) ((dats 0 c).arrAt 4 cfg0.N) (Proc.devRef .tc main_v2)
    rw [Function.update_self]
  | ⟨_ + 5, h⟩ => absurd h (Nat.not_lt.2 (Nat.le_add_left _ _))

/-- None of the three divisions' lines writes a window's array. -/
theorem after_keep_v0 (W : Valuation τ sig (Elt F)) : StableHlo.after hostOps1 W (Proc.devRef .tc main_v0) = W (Proc.devRef .tc main_v0) :=
  StableHlo.after_of_forall_not_mem (b := Proc.devRef .tc main_v0) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

theorem after_keep_v1 (W : Valuation τ sig (Elt F)) : StableHlo.after hostOps1 W (Proc.devRef .tc main_v1) = W (Proc.devRef .tc main_v1) :=
  StableHlo.after_of_forall_not_mem (b := Proc.devRef .tc main_v1) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))
theorem after_keep_v2 (W : Valuation τ sig (Elt F)) : StableHlo.after hostOps1 W (Proc.devRef .tc main_v2) = W (Proc.devRef .tc main_v2) :=
  StableHlo.after_of_forall_not_mem (b := Proc.devRef .tc main_v2) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

/-- So every window's array is, after the lines, as before them. -/
theorem after_keep_arr (W : Valuation τ sig (Elt F)) :
    ∀ w : Fin 5, StableHlo.after hostOps1 W (Proc.devRef .tc (Pipeline.arrRef spec0 w)) = W (Proc.devRef .tc (Pipeline.arrRef spec0 w))
  | 0 => after_keep_v0 W
  | 1 => after_keep_v0 W
  | 2 => after_keep_v1 W
  | 3 => after_keep_v1 W
  | 4 => after_keep_v2 W
  | ⟨_ + 5, h⟩ => absurd h (Nat.not_lt.2 (Nat.le_add_left _ _))

/-- The unscoped buffers held at `W` are the windows' arrays, split between the windows, and the rest. -/
theorem held_eq {c : Dev nD} (dat : Dat τ (Elt F) Unit ℕ (UR sig nD τ) ℕ cfg0 c)
    (hq : dat.q 0 = fullShare.left ∧ dat.q 1 = fullShare.right ∧ dat.q 2 = fullShare.left ∧ dat.q 3 = fullShare.right)
    (W : Valuation τ sig (Elt F))
    (Fw : (w : Fin cfg0.W) → Buf (Elt F) ((cfg0.win w).arr.view.loc (c.tc : Thread nD τ)))
    (hF : ∀ w, Fw w = W (Proc.devRef .tc (Pipeline.arrRef spec0 w))) :
    (StableHlo.held (c.tc : Thread nD τ) (Pipeline.ucRefs τ sig) W : sProp 𝕄)
      = iprop(dat.arrays Fw ∗ Pipeline.unscopedRest spec0 c (fun b => W (Proc.devRef .tc b))) := by
  rw [← Pipeline.unscopedBufs_held (Ix := Unit) (Name := ℕ) (U := UR sig nD τ) (Lvl := ℕ) c W,
    Pipeline.unscopedBufs_split₀ cfgs 0 winFacts₀0.arr_unscoped c,
    arrays_eq_arrBufs dat hq (fun b => W (Proc.devRef .tc b)) Fw hF]

/-- The lines after the region: the shared arrays' halves are joined, every unscoped buffer is then held whole at the
    exit contents, the lines run over them, and the arrays are split again — unchanged — from the rest, now at the
    contents after the lines. -/
theorem tail_run (dats : (p : Fin 1) → (c : Dev nD) → Dat τ (Elt F) Unit ℕ (UR sig nD τ) ℕ (cfgs p) c)
    (hq : ∀ c, (dats 0 c).q 0 = fullShare.left ∧ (dats 0 c).q 1 = fullShare.right ∧ (dats 0 c).q 2 = fullShare.left ∧ (dats 0 c).q 3 = fullShare.right)
    (hA : ∀ c w, (dats 0 c).A w = V m c (Pipeline.arrRef spec0 w)) (c : Dev nD) (Q' : PUnit → sProp 𝕄) :
    iprop((iprop((dats 0 c).arrays ((dats 0 c).arrAt · cfg0.N) ∗ Pipeline.unscopedRest spec0 c (afterT m dats c)) -∗ Q' ⟨⟩)
        ∗ boundary (c.tc : Thread nD τ) ∗ (dats 0 c).arrays ((dats 0 c).arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hZ : (Pipeline.unscopedRest spec0 c (V m c) : sProp 𝕄) = Pipeline.unscopedRest spec0 c (fun b => Wexit m dats c (Proc.devRef .tc b)) := by
    unfold Pipeline.unscopedRest
    exact bigSep_congr fun b hb => by
      have h : Wexit m dats c (Proc.devRef .tc b) = V m c b :=
        Function.update_of_ne (fun e => (Finset.mem_sdiff.mp hb).2 (Finset.mem_image.mpr ⟨4, Finset.mem_univ _, (Proc.devRef_injective _ e).symm⟩)) _ _
      beta_reduce; rw [h]
  have hE := held_eq (dats 0 c) (hq c) (Wexit m dats c) ((dats 0 c).arrAt · cfg0.N) (Wexit_arr m dats hA c)
  have hX := held_eq (dats 0 c) (hq c) (StableHlo.after hostOps1 (Wexit m dats c)) ((dats 0 c).arrAt · cfg0.N)
    (fun w => (Wexit_arr m dats hA c w).trans (after_keep_arr _ w).symm)
  rw [hZ, ← hE]
  rw [show (Pipeline.unscopedRest spec0 c (afterT m dats c) : sProp 𝕄) = Pipeline.unscopedRest spec0 c (fun b => StableHlo.after hostOps1 (Wexit m dats c) (Proc.devRef .tc b)) from rfl, ← hX]
  iintro ⟨Hk, Hb⟩
  iapply (Pipeline.wp_seqs_then (fun q => (cfgs q).toPCfg (Val := Elt F)) defs₀ Variants.none c (Pipeline.ucRefs τ sig) [] [hostOps1]
    (fun ops ho op h => by
      obtain rfl := List.mem_singleton.mp ho
      exact Pipeline.sub_ucRefs op (List.forall_iff_forall_mem.mp hostOps1_sub op h))
    (fun ops ho op h => by
      obtain rfl := List.mem_singleton.mp ho
      exact List.forall_iff_forall_mem.mp hostOps1_fresh op h)
    (Wexit m dats c)) $$ Hb
  iintro Hb
  rw [Pipeline.chain_nil, wp_pure]
  imodintro
  iapply Hk
  icases Hb with ⟨-, H⟩
  iexact H

/-- THE RUN, for any proof data that read their arrays off `V`, split the two shared arrays in halves between their
    windows, owe nothing, satisfy the body obligation, and whose invariant is the accumulator-at-anything one before the
    first point and gives it back after the last. -/
theorem run_main_of (dats : (p : Fin 1) → (c : Dev nD) → Dat τ (Elt F) Unit ℕ (UR sig nD τ) ℕ (cfgs p) c)
    (hq : ∀ c, (dats 0 c).q 0 = fullShare.left ∧ (dats 0 c).q 1 = fullShare.right ∧ (dats 0 c).q 2 = fullShare.left ∧ (dats 0 c).q 3 = fullShare.right)
    (hbody : ∀ c, Pipeline.BodyObligationLoose (dats 0 c) (defs₀ (F := F)) Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (RunPost m dats) := by
  classical
  exact Pipeline.θ_run_region_pf_tail (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq (arrays_eq_arrBufs (dats 0 c) (hq c) (V m c) _ (fun w => hA c w)).symm)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (afterT m dats c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats hq hA c Q')
    (QY := fun c s => ∀ b ∈ Pipeline.restRefs sig spec0, s.mem ((c.tc : Thread nD τ).loc b) = afterT m dats c b)
    (hY := fun c s' => by
      iintro ⟨-, HU, HSI⟩
      unfold Pipeline.unscopedRest
      imodintro
      iapply (pointsTo_read_all (Pipeline.restRefs sig spec0) (fun b => (c.tc : Thread nD τ).loc b) (afterT m dats c) s')
      isplitl [HU] <;> iassumption)
    (hQ := fun s h c => ⟨(h c).1, (h c).2.2⟩)

end Cert.KernelIdeal.Fr

end
-- ==== Proof.K.Runs.lean ====
/-
  What the three runs of the kernel body and the frame share.

  @main reshapes each argument array to [8, 32, 4096], runs the kernel region over an 8 × 4 × 4 grid, and divides
  the region's one result three times. The region stages four input windows — a row block and a column block of
  each reshaped array, two windows on each array — and one [1, 1] output window, and carries a [1, 1] accumulator in
  scratch from point to point. Here: the buffers' contents when the region is entered (`V`), each window's block at
  a point read off them (`iblk`), that an input's staging buffer holds its block at every point, the two conditions
  the body branches on in closed form over the grid — the first point resets the accumulator, the last point stores it
  to the output —, where the output window is idle, and the staging and scratch memrefs by name.
-/
import proofs.«110113_j85057532330632_1_alg».proof.Proof.Gen.Kernel.Launch
import proofs.«110113_j85057532330632_1_alg».proof.Proof.Gen.Kernel.Skeleton
import proofs.«110113_j85057532330632_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshapes, the region, then the three divisions: it reduces to the region continued by the divisions,
    the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Neither reshape writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched its block index has not moved), for any proof data whose array is `V`'s and whose body leaves the block in
    place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the grid's first point" as the body computes it: all three coordinates equal zero. -/
abbrev cond0_0 (i : grid0.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- "This is the grid's last point": the coordinates equal (7, 3, 3). -/
abbrev cond0_1 (i : grid0.Coords) : Prop := k0_cond2 i = 1#1
/-- It holds at point 127 only. -/
theorem hcond0_1 : ∀ t : Fin cfg0.N, cond0_1 (grid0.coords t) ↔ t.val = 127 :=
  (by decide +kernel : ∀ t : Fin grid0.N, cond0_1 (grid0.coords t) ↔ t.val = 127)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the body stores nothing into the output window, and the pipeline does not write it back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last point it is live. -/
theorem liveAt0_4 : ∀ t : Fin cfg0.N, cond0_1 (grid0.coords t) → cfg0.idle 4 (grid0.coords t) = false := by decide +kernel

/-! ## The staging and scratch memrefs -/

/-- The output window's staging buffer as a view: what it holds is stated through it. -/
abbrev VO0_4 : View sig .tc .vmem S1x1 .f32 := (Memref.whole cc0_stg4_0 : Memref sig .tc .vmem S1x1 .f32).view
/-- Each window's current staging memref at point `t`, and its wholeness. -/
abbrev ms0_0 (t : Fin cfg0.N) : Memref sig .tc .vmem S1x32x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S1x1 .f32 := Memref.whole cc0_scratch0
abbrev VS0_0 : View sig .tc .vmem S1x1 .f32 := scM0_0.view

/-- The region's invariant before the first point: the accumulator at some contents, the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The kernel body run once, whole, at the grid's FIRST point (the accumulator is reset, then added to; the output is not stored): on whole staging memrefs holding the four input blocks, the body
  runs to its end and leaves the inputs as they were; what its stores leave in the accumulator (and, where it stores
  it, in the output buffer) is recorded as a list of pieces, found by the run itself.
-/
import proofs.«110113_j85057532330632_1_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- First point: the accumulator is found at anything, reset to zero and then added to; the output buffer is handed
    back untouched. -/
noncomputable def kernelRun0_A (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1x32x1024 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__sim_diff_kernel i arg3 harg3 arg4 harg4 arg5 harg5 arg6 harg6 arg7 harg7 arg8 harg8) K } := by
  refine ⟨[], ?_, fun xi4 E K => ?run⟩
  case run =>
    simp only [cc0__sim_diff_kernel_eq_skeleton]; unfold cc0__sim_diff_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.RunB.lean ====
/-
  The kernel body run once, whole, at a MIDDLE point (neither first nor last: the accumulator is added to; the output is not stored): on whole staging memrefs holding the four input blocks, the body
  runs to its end and leaves the inputs as they were; what its stores leave in the accumulator (and, where it stores
  it, in the output buffer) is recorded as a list of pieces, found by the run itself.
-/
import proofs.«110113_j85057532330632_1_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A middle point: the accumulator is found at what the point before left (`xs0`) and added to; the output buffer is
    handed back untouched. -/
noncomputable def kernelRun0_B (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1x32x1024 .f32) (xs0 : Vec F S1x1 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__sim_diff_kernel i arg3 harg3 arg4 harg4 arg5 harg5 arg6 harg6 arg7 harg7 arg8 harg8) K } := by
  refine ⟨[], ?_, fun xi4 E K => ?run⟩
  case run =>
    simp only [cc0__sim_diff_kernel_eq_skeleton]; unfold cc0__sim_diff_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.RunC.lean ====
/-
  The kernel body run once, whole, at the grid's LAST point (the accumulator is added to, then stored to the output): on whole staging memrefs holding the four input blocks, the body
  runs to its end and leaves the inputs as they were; what its stores leave in the accumulator (and, where it stores
  it, in the output buffer) is recorded as a list of pieces, found by the run itself.
-/
import proofs.«110113_j85057532330632_1_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The last point: the accumulator is found at what the point before left (`xs0`), added to, read back and stored to
    the output buffer, which is found at anything. -/
noncomputable def kernelRun0_C (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1x32x1024 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__sim_diff_kernel i arg3 harg3 arg4 harg4 arg5 harg5 arg6 harg6 arg7 harg7 arg8 harg8) K } := by
  refine ⟨?_, ?_, fun E K => ?run⟩
  case run =>
    simp only [cc0__sim_diff_kernel_eq_skeleton]; unfold cc0__sim_diff_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.K.Frame.lean ====
/-
  The proof data of the kernel region and its body obligation.

  After the body at grid point n the accumulator holds what the point's run leaves in it: at the first point the run
  resets it and adds the first tile's total; at every later point the run adds that point's total to what the point
  before left. The output window's staging buffer is stored only at the last point, with the accumulator's value
  there; elsewhere the window is idle and its buffer is handed back as found. Each input window's buffer holds its
  block at every point. The region's invariant tracks the accumulator: anything before the first point, the previous
  point's contents afterwards. With these as proof data, the body's three whole runs (first, middle, last point)
  discharge the obligation at every point.
-/
import proofs.«110113_j85057532330632_1_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- First point: nothing is stored into the output window (a placeholder nothing consults). -/
def out0_A_4 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 x1 x2 x3 : Vec F S1x32x1024 .f32) : Vec F S1x1 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)
/-- First point: the stores into the accumulator cover it. -/
theorem scover0_A_0 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 x1 x2 x3 : Vec F S1x32x1024 .f32) (y : S1x1.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1x1.size (by sl_kernel_rfl) y
/-- First point: what the accumulator holds afterwards. -/
def sout0_A_0 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 x1 x2 x3 : Vec F S1x32x1024 .f32) : Vec F S1x1 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- Middle point: nothing is stored into the output window. -/
def out0_B_4 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 x1 x2 x3 : Vec F S1x32x1024 .f32) (xs0 : Vec F S1x1 .f32) : Vec F S1x1 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)
theorem scover0_B_0 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 x1 x2 x3 : Vec F S1x32x1024 .f32) (xs0 : Vec F S1x1 .f32) (y : S1x1.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S1x1.size (by sl_kernel_rfl) y
/-- Middle point: what the accumulator holds afterwards, over what the point before left (`xs0`). -/
def sout0_B_0 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 x1 x2 x3 : Vec F S1x32x1024 .f32) (xs0 : Vec F S1x1 .f32) : Vec F S1x1 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- Last point: the one store into the output window covers it. -/
theorem cover0_C_4 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 x3 : Vec F S1x32x1024 .f32) (xs0 : Vec F S1x1 .f32) (y : S1x1.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x1.size (by sl_kernel_rfl) y
/-- Last point: what the output window's staging buffer holds afterwards. -/
def out0_C_4 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 x3 : Vec F S1x32x1024 .f32) (xs0 : Vec F S1x1 .f32) : Vec F S1x1 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)
theorem scover0_C_0 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 x3 : Vec F S1x32x1024 .f32) (xs0 : Vec F S1x1 .f32) (y : S1x1.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S1x1.size (by sl_kernel_rfl) y
/-- Last point: what the accumulator holds afterwards. -/
def sout0_C_0 (c : Dev nD) (i : grid0.Coords) (arg3 : Memref sig .tc .vmem S1x32x1024 .f32) (harg3 : arg3.IsWhole) (arg4 : Memref sig .tc .vmem S1x32x1024 .f32) (harg4 : arg4.IsWhole) (arg5 : Memref sig .tc .vmem S1x32x1024 .f32) (harg5 : arg5.IsWhole) (arg6 : Memref sig .tc .vmem S1x32x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 x3 : Vec F S1x32x1024 .f32) (xs0 : Vec F S1x1 .f32) : Vec F S1x1 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## What the output window's buffer and the accumulator hold after each point -/

/-- After the body at position `n`: (the output window's staging buffer, the accumulator). Point 0 resets; every later
    point adds to what the point before left; point 127 also stores the output. -/
def outsAt0 (c : Dev nD) : (n : ℕ) → n < cfg0.N → Vec F S1x1 .f32 × Vec F S1x1 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h1 : n + 1 = 127 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => (fun h => by (try dsimp only at h); omega) ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => (fun h => by (try dsimp only at h); omega) ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => (fun h => by (try dsimp only at h); omega) ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => (fun h => by (try dsimp only at h); omega) ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At the first point. -/
theorem outsAt0_A (c : Dev nD) (t : Fin cfg0.N) (h0 : t.val = 0) (h1 : ¬t.val = 127) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t),
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact absurd h0 (Nat.succ_ne_zero n)

/-- At a middle point: over what the point before left. -/
theorem outsAt0_B (c : Dev nD) (t : Fin cfg0.N) (h0 : ¬t.val = 0) (h1 : ¬t.val = 127) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- At the last point: over what the point before left. -/
theorem outsAt0_C (c : Dev nD) (t : Fin cfg0.N) (h0 : ¬t.val = 0) (h1 : t.val = 127) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point the accumulator at anything; afterwards at what
    the point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block, the output's at `outsAt0`;
    the tracking invariant; the two arrays that two windows read split in halves between them; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]
theorem q_eq (c : Dev nD) : (dats m 0 c).q 0 = fullShare.left ∧ (dats m 0 c).q 1 = fullShare.right ∧ (dats m 0 c).q 2 = fullShare.left ∧ (dats m 0 c).q 3 = fullShare.right :=
  ⟨rfl, rfl, rfl, rfl⟩
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point: the inputs' buffers hold their blocks; the point is the first, a middle one or the last;
    that case's run applies, the invariant handing it the accumulator and taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 128 := lt_of_lt_of_eq t.isLt (show cfg0.N = 128 from N_0)
  by_cases h0 : t.val = 0
  · have h1 : ¬t.val = 127 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 127
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

end Cert.Kernel.Fr

end
-- ==== Proof.K.Exit.lean ====
/-
  What the buffers hold when the region is left and after the divisions that follow it, and what the whole run ends in.
-/
import proofs.«110113_j85057532330632_1_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffer contents at the region's exit: as at entry, but for the region's result array, which holds what the
    write-backs left. -/
def Wexit (dats : (p : Fin 1) → (c : Dev nD) → Dat τ (Elt F) Unit ℕ (UR sig nD τ) ℕ (cfgs p) c) (c : Dev nD) : Valuation τ sig (Elt F) :=
  Function.update (V0 m c) (Proc.devRef .tc main_v2) ((dats 0 c).arrAt 4 cfg0.N)

/-- A TensorCore buffer's contents after the divisions that follow the region. -/
def afterT (dats : (p : Fin 1) → (c : Dev nD) → Dat τ (Elt F) Unit ℕ (UR sig nD τ) ℕ (cfgs p) c) (c : Dev nD) (b : Ref sig .tc) : Buf (Elt F) ((c : Thread nD τ).loc b) :=
  StableHlo.after hostOps1 (Wexit m dats c) (Proc.devRef .tc b)

/-- What the run ends in: every window's array at what the proof data compute for it after all write-backs, every other
    unscoped buffer at what the divisions leave. -/
def RunPost (dats : (p : Fin 1) → (c : Dev nD) → Dat τ (Elt F) Unit ℕ (UR sig nD τ) ℕ (cfgs p) c) (r : PUnit × MemSt nD τ sig (Elt F)) : Prop :=
  ∀ c : Dev nD, (∀ w, r.2.mem (((cfgs 0).spec w).arr.view.loc (c.tc : Thread nD τ)) = (dats 0 c).arrAt w (cfgs 0).N)
    ∧ ∀ b ∈ Pipeline.restRefs sig spec0, r.2.mem ((c.tc : Thread nD τ).loc b) = afterT m dats c b

end Cert.Kernel.Fr

end
-- ==== Proof.K.Launch.lean ====
/-
  The launch: from the body obligation at every grid point to the run of the whole program.

  Two pairs of input windows read one array each, so each of those arrays is held by its two windows at half
  shares, the output array by its window whole. Entering the region splits each shared array's buffer into its two
  halves; after the last point the halves are joined again (an input array is never written, so both windows end
  holding the entry contents), the output array's buffer and the buffers that bypass the region are held whole, the
  three divisions run over them, and everything is read back against the final state.
-/
import proofs.«110113_j85057532330632_1_alg».proof.Proof.K.Exit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays two windows share -/

/-- The windows' arrays are three buffers: the two reshaped arguments and the result. -/
theorem arr_image : Finset.univ.image (Pipeline.arrRef spec0) = [main_v0, main_v1, main_v2].toFinset := by decide

/-- Those three buffers, each held whole, one by one. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v1) ↦{fullShare} W main_v1)
          ∗ (((c.tc : Thread nD τ).loc main_v2) ↦{fullShare} W main_v2)) := by
  unfold Pipeline.arrBufs
  exact bigSep_eq_bigSepL_of_eq [main_v0, main_v1, main_v2] arr_image (by decide) _

/-- The five windows' holdings — each shared input array as its two windows' halves, the output array whole — are the
    three buffers held whole, at contents that agree window by window: a whole share is its left and right halves. -/
theorem arrays_eq_arrBufs {c : Dev nD} (dat : Dat τ (Elt F) Unit ℕ (UR sig nD τ) ℕ cfg0 c)
    (hq : dat.q 0 = fullShare.left ∧ dat.q 1 = fullShare.right ∧ dat.q 2 = fullShare.left ∧ dat.q 3 = fullShare.right)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    (dat.arrays Fw : sProp 𝕄) = Pipeline.arrBufs spec0 c W := by
  have s0 : dat.share 0 = fullShare.left := by unfold Dat.share; rw [if_neg (by decide)]; exact hq.1
  have s1 : dat.share 1 = fullShare.right := by unfold Dat.share; rw [if_neg (by decide)]; exact hq.2.1
  have s2 : dat.share 2 = fullShare.left := by unfold Dat.share; rw [if_neg (by decide)]; exact hq.2.2.1
  have s3 : dat.share 3 = fullShare.right := by unfold Dat.share; rw [if_neg (by decide)]; exact hq.2.2.2
  have s4 : dat.share 4 = fullShare := by unfold Dat.share; rw [if_pos (by decide)]
  rw [arrBufs_chain]
  unfold Dat.arrays
  rw [bigSep_W0]
  rw [(arr_whole0 0).set_eq_univ, (arr_whole0 2).set_eq_univ, (arr_whole0 4).set_eq_univ,
    s0, s1, s2, s3, s4, hF 0, hF 1, hF 2, hF 3, hF 4]
  refine Entails.antisymm (show (_ : sProp 𝕄) ⊢ _ from ?_) (show (_ : sProp 𝕄) ⊢ _ from ?_)
  · iintro ⟨H0, H1, H2, H3, H4⟩
    isplitl [H0 H1]
    · iapply (pointsTo_share (PosShare.mem_left_op_right fullShare)).2
      isplitl [H0]; · iexact H0
      iexact H1
    isplitl [H2 H3]
    · iapply (pointsTo_share (PosShare.mem_left_op_right fullShare)).2
      isplitl [H2]; · iexact H2
      iexact H3
    iexact H4
  · iintro ⟨H0, H1, H2⟩
    ihave H0 := (pointsTo_share (PosShare.mem_left_op_right fullShare)).1 $$ H0
    ihave H1 := (pointsTo_share (PosShare.mem_left_op_right fullShare)).1 $$ H1
    icases H0 with ⟨H0l, H0r⟩
    icases H1 with ⟨H1l, H1r⟩
    isplitl [H0l]; · iexact H0l
    isplitl [H0r]; · iexact H0r
    isplitl [H1l]; · iexact H1l
    isplitl [H1r]; · iexact H1r
    iexact H2

/-- At the region's exit every window's array holds the exit contents: an input array is never written, so it is as at
    entry; the output array is what the write-backs left. -/
theorem Wexit_arr (dats : (p : Fin 1) → (c : Dev nD) → Dat τ (Elt F) Unit ℕ (UR sig nD τ) ℕ (cfgs p) c)
    (hA : ∀ c w, (dats 0 c).A w = V m c (Pipeline.arrRef spec0 w)) (c : Dev nD) :
    ∀ w : Fin 5, (dats 0 c).arrAt w cfg0.N = Wexit m dats c (Proc.devRef .tc (Pipeline.arrRef spec0 w))
  | 0 => by rw [(dats 0 c).arrAt_in 0 rfl, hA c 0]; exact (Function.update_of_ne (StableHlo.devRef_ne_of_ne (by decide)) _ _).symm
  | 1 => by rw [(dats 0 c).arrAt_in 1 rfl, hA c 1]; exact (Function.update_of_ne (StableHlo.devRef_ne_of_ne (by decide)) _ _).symm
  | 2 => by rw [(dats 0 c).arrAt_in 2 rfl, hA c 2]; exact (Function.update_of_ne (StableHlo.devRef_ne_of_ne (by decide)) _ _).symm
  | 3 => by rw [(dats 0 c).arrAt_in 3 rfl, hA c 3]; exact (Function.update_of_ne (StableHlo.devRef_ne_of_ne (by decide)) _ _).symm
  | 4 => by
    show _ = Function.update (V0 m c) (Proc.devRef .tc main_v2) ((dats 0 c).arrAt 4 cfg0.N) (Proc.devRef .tc main_v2)
    rw [Function.update_self]
  | ⟨_ + 5, h⟩ => absurd h (Nat.not_lt.2 (Nat.le_add_left _ _))

/-- None of the three divisions' lines writes a window's array. -/
theorem after_keep_v0 (W : Valuation τ sig (Elt F)) : StableHlo.after hostOps1 W (Proc.devRef .tc main_v0) = W (Proc.devRef .tc main_v0) :=
  StableHlo.after_of_forall_not_mem (b := Proc.devRef .tc main_v0) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

theorem after_keep_v1 (W : Valuation τ sig (Elt F)) : StableHlo.after hostOps1 W (Proc.devRef .tc main_v1) = W (Proc.devRef .tc main_v1) :=
  StableHlo.after_of_forall_not_mem (b := Proc.devRef .tc main_v1) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))
theorem after_keep_v2 (W : Valuation τ sig (Elt F)) : StableHlo.after hostOps1 W (Proc.devRef .tc main_v2) = W (Proc.devRef .tc main_v2) :=
  StableHlo.after_of_forall_not_mem (b := Proc.devRef .tc main_v2) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

/-- So every window's array is, after the lines, as before them. -/
theorem after_keep_arr (W : Valuation τ sig (Elt F)) :
    ∀ w : Fin 5, StableHlo.after hostOps1 W (Proc.devRef .tc (Pipeline.arrRef spec0 w)) = W (Proc.devRef .tc (Pipeline.arrRef spec0 w))
  | 0 => after_keep_v0 W
  | 1 => after_keep_v0 W
  | 2 => after_keep_v1 W
  | 3 => after_keep_v1 W
  | 4 => after_keep_v2 W
  | ⟨_ + 5, h⟩ => absurd h (Nat.not_lt.2 (Nat.le_add_left _ _))

/-- The unscoped buffers held at `W` are the windows' arrays, split between the windows, and the rest. -/
theorem held_eq {c : Dev nD} (dat : Dat τ (Elt F) Unit ℕ (UR sig nD τ) ℕ cfg0 c)
    (hq : dat.q 0 = fullShare.left ∧ dat.q 1 = fullShare.right ∧ dat.q 2 = fullShare.left ∧ dat.q 3 = fullShare.right)
    (W : Valuation τ sig (Elt F))
    (Fw : (w : Fin cfg0.W) → Buf (Elt F) ((cfg0.win w).arr.view.loc (c.tc : Thread nD τ)))
    (hF : ∀ w, Fw w = W (Proc.devRef .tc (Pipeline.arrRef spec0 w))) :
    (StableHlo.held (c.tc : Thread nD τ) (Pipeline.ucRefs τ sig) W : sProp 𝕄)
      = iprop(dat.arrays Fw ∗ Pipeline.unscopedRest spec0 c (fun b => W (Proc.devRef .tc b))) := by
  rw [← Pipeline.unscopedBufs_held (Ix := Unit) (Name := ℕ) (U := UR sig nD τ) (Lvl := ℕ) c W,
    Pipeline.unscopedBufs_split₀ cfgs 0 winFacts₀0.arr_unscoped c,
    arrays_eq_arrBufs dat hq (fun b => W (Proc.devRef .tc b)) Fw hF]

/-- The lines after the region: the shared arrays' halves are joined, every unscoped buffer is then held whole at the
    exit contents, the lines run over them, and the arrays are split again — unchanged — from the rest, now at the
    contents after the lines. -/
theorem tail_run (dats : (p : Fin 1) → (c : Dev nD) → Dat τ (Elt F) Unit ℕ (UR sig nD τ) ℕ (cfgs p) c)
    (hq : ∀ c, (dats 0 c).q 0 = fullShare.left ∧ (dats 0 c).q 1 = fullShare.right ∧ (dats 0 c).q 2 = fullShare.left ∧ (dats 0 c).q 3 = fullShare.right)
    (hA : ∀ c w, (dats 0 c).A w = V m c (Pipeline.arrRef spec0 w)) (c : Dev nD) (Q' : PUnit → sProp 𝕄) :
    iprop((iprop((dats 0 c).arrays ((dats 0 c).arrAt · cfg0.N) ∗ Pipeline.unscopedRest spec0 c (afterT m dats c)) -∗ Q' ⟨⟩)
        ∗ boundary (c.tc : Thread nD τ) ∗ (dats 0 c).arrays ((dats 0 c).arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hZ : (Pipeline.unscopedRest spec0 c (V m c) : sProp 𝕄) = Pipeline.unscopedRest spec0 c (fun b => Wexit m dats c (Proc.devRef .tc b)) := by
    unfold Pipeline.unscopedRest
    exact bigSep_congr fun b hb => by
      have h : Wexit m dats c (Proc.devRef .tc b) = V m c b :=
        Function.update_of_ne (fun e => (Finset.mem_sdiff.mp hb).2 (Finset.mem_image.mpr ⟨4, Finset.mem_univ _, (Proc.devRef_injective _ e).symm⟩)) _ _
      beta_reduce; rw [h]
  have hE := held_eq (dats 0 c) (hq c) (Wexit m dats c) ((dats 0 c).arrAt · cfg0.N) (Wexit_arr m dats hA c)
  have hX := held_eq (dats 0 c) (hq c) (StableHlo.after hostOps1 (Wexit m dats c)) ((dats 0 c).arrAt · cfg0.N)
    (fun w => (Wexit_arr m dats hA c w).trans (after_keep_arr _ w).symm)
  rw [hZ, ← hE]
  rw [show (Pipeline.unscopedRest spec0 c (afterT m dats c) : sProp 𝕄) = Pipeline.unscopedRest spec0 c (fun b => StableHlo.after hostOps1 (Wexit m dats c) (Proc.devRef .tc b)) from rfl, ← hX]
  iintro ⟨Hk, Hb⟩
  iapply (Pipeline.wp_seqs_then (fun q => (cfgs q).toPCfg (Val := Elt F)) defs₀ Variants.none c (Pipeline.ucRefs τ sig) [] [hostOps1]
    (fun ops ho op h => by
      obtain rfl := List.mem_singleton.mp ho
      exact Pipeline.sub_ucRefs op (List.forall_iff_forall_mem.mp hostOps1_sub op h))
    (fun ops ho op h => by
      obtain rfl := List.mem_singleton.mp ho
      exact List.forall_iff_forall_mem.mp hostOps1_fresh op h)
    (Wexit m dats c)) $$ Hb
  iintro Hb
  rw [Pipeline.chain_nil, wp_pure]
  imodintro
  iapply Hk
  icases Hb with ⟨-, H⟩
  iexact H

/-- THE RUN, for any proof data that read their arrays off `V`, split the two shared arrays in halves between their
    windows, owe nothing, satisfy the body obligation, and whose invariant is the accumulator-at-anything one before the
    first point and gives it back after the last. -/
theorem run_main_of (dats : (p : Fin 1) → (c : Dev nD) → Dat τ (Elt F) Unit ℕ (UR sig nD τ) ℕ (cfgs p) c)
    (hq : ∀ c, (dats 0 c).q 0 = fullShare.left ∧ (dats 0 c).q 1 = fullShare.right ∧ (dats 0 c).q 2 = fullShare.left ∧ (dats 0 c).q 3 = fullShare.right)
    (hbody : ∀ c, Pipeline.BodyObligationLoose (dats 0 c) (defs₀ (F := F)) Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (RunPost m dats) := by
  classical
  exact Pipeline.θ_run_region_pf_tail (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq (arrays_eq_arrBufs (dats 0 c) (hq c) (V m c) _ (fun w => hA c w)).symm)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (afterT m dats c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats hq hA c Q')
    (QY := fun c s => ∀ b ∈ Pipeline.restRefs sig spec0, s.mem ((c.tc : Thread nD τ).loc b) = afterT m dats c b)
    (hY := fun c s' => by
      iintro ⟨-, HU, HSI⟩
      unfold Pipeline.unscopedRest
      imodintro
      iapply (pointsTo_read_all (Pipeline.restRefs sig spec0) (fun b => (c.tc : Thread nD τ).loc b) (afterT m dats c) s')
      isplitl [HU] <;> iassumption)
    (hQ := fun s h c => ⟨(h c).1, (h c).2.2⟩)

end Cert.Kernel.Fr

end
-- ==== Proof.K.Tail.lean ====
/-
  The divisions after the region, read off: they write neither argument array, and the program's result is the
  region's one result reshaped to a scalar and divided by 16777216, by 2 and by 4.
-/
import proofs.«110113_j85057532330632_1_alg».proof.Proof.K.Exit
import Idealize.ShloMosaic.Lib.StableHlo.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arg0_rest : main_arg0 ∈ Pipeline.restRefs sig spec0 := by decide
theorem arg1_rest : main_arg1 ∈ Pipeline.restRefs sig spec0 := by decide
theorem v6_rest : main_v6 ∈ Pipeline.restRefs sig spec0 := by decide

/-- No operation around the region writes the first argument array: it ends as launched. -/
theorem afterT_arg0 (dats : (p : Fin 1) → (c : Dev nD) → Dat τ (Elt F) Unit ℕ (UR sig nD τ) ℕ (cfgs p) c) (c : Dev nD) :
    afterT m dats c main_arg0 = m ((c : Thread nD τ).loc main_arg0) := by
  unfold afterT
  refine (StableHlo.after_of_forall_not_mem (b := Proc.devRef .tc main_arg0) _ _ (List.forall_iff_forall_mem.mp (by
    simp only [hostOps1, List.Forall, StableHlo.nullary_writes, StableHlo.binary_writes, StableHlo.reshape_writes,
      Finset.mem_singleton]
    repeat' apply And.intro
    all_goals exact StableHlo.devRef_ne_of_ne (by decide)))).trans ?_
  unfold Wexit
  rw [Function.update_of_ne (StableHlo.devRef_ne_of_ne (by decide))]
  exact V_main_arg0 m c

/-- Nor the second. -/
theorem afterT_arg1 (dats : (p : Fin 1) → (c : Dev nD) → Dat τ (Elt F) Unit ℕ (UR sig nD τ) ℕ (cfgs p) c) (c : Dev nD) :
    afterT m dats c main_arg1 = m ((c : Thread nD τ).loc main_arg1) := by
  unfold afterT
  refine (StableHlo.after_of_forall_not_mem (b := Proc.devRef .tc main_arg1) _ _ (List.forall_iff_forall_mem.mp (by
    simp only [hostOps1, List.Forall, StableHlo.nullary_writes, StableHlo.binary_writes, StableHlo.reshape_writes,
      Finset.mem_singleton]
    repeat' apply And.intro
    all_goals exact StableHlo.devRef_ne_of_ne (by decide)))).trans ?_
  unfold Wexit
  rw [Function.update_of_ne (StableHlo.devRef_ne_of_ne (by decide))]
  exact V_main_arg1 m c

/-- The program's result: the region's result array after its write-backs, as a scalar, divided three times. -/
theorem afterT_v6 (dats : (p : Fin 1) → (c : Dev nD) → Dat τ (Elt F) Unit ℕ (UR sig nD τ) ℕ (cfgs p) c) (c : Dev nD) :
    (afterT m dats c main_v6 : (⟨S_, .f32⟩ : BufTy).Contents (Elt F))
      = Host.divf (Host.divf (Host.divf (shapeCast S_ ((dats 0 c).arrAt 4 cfg0.N : (⟨S1x1, .f32⟩ : BufTy).Contents (Elt F)) shapeCasts_S1x1_S_)
          (constant S_ .f32 0x4B800000#32)) (constant S_ .f32 0x40000000#32)) (constant S_ .f32 0x40800000#32) := by
  unfold afterT
  show StableHlo.after hostOps1 (Wexit m dats c) (Proc.devRef .tc main_v6) = _
  after_results
  unfold Wexit
  rw [Function.update_self]
  rfl

end Cert.Kernel.Fr

end
-- ==== Proof.RefIsSpec.lean ====
/-
  The reference's result is the loss of Spec.lean: its operations, read one at a time at an index, are the
  normalisation of each channel vector, the Gram matrix of each array, the squared difference summed over
  everything, and the three divisions.
-/
import proofs.«110113_j85057532330632_1_alg».proof.Proof.Gen.ReferenceIdeal.Read
import proofs.«110113_j85057532330632_1_alg».proof.Proof.Spec

noncomputable section

open scoped BigOperators

namespace Cert.ReferenceIdeal.RefValue

open Cert.ReferenceIdeal Cert.ReferenceIdeal.Gen Idealize.ShloMosaic Idealize.ShloMosaic.TcCoe Idealize.ShloMosaic.ValueIdx
open Cert.ReferenceIdeal.Read

/-! ## A sum over a three-axis index set is the triple sum over its coordinates -/

/-- A three-axis index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, first axis outermost. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The index arithmetic of the two reshapes

  Both reshapes keep the row-major position. With n < 8, c < 32 and p < 4096 the flat position of (n, c, p) in the
  [8, 32, 4096] array is (32·n + c)·4096 + p; read as [8, 32, 64, 64] it is (n, c, p / 64, p % 64), and read as
  [2, 4, 32, 64, 64] it is (n / 4, n % 4, c, p / 64, p % 64), which is the specification's index of (n, c, p). -/

/-- Sample n, channel c, position p = 64·h + w as an index of the four-axis array [n, c, h, w]. -/
abbrev pos4 (n : Fin 8) (c : Fin 32) (p : Fin 4096) : S8x32x64x64.Idx :=
  ix4 n c (⟨p.val / 64, by omega⟩ : Fin 64) (⟨p.val % 64, by omega⟩ : Fin 64)

/-- The reshape [8, 32, 64, 64] → [8, 32, 4096] reads (n, c, p) at (n, c, p / 64, p % 64). -/
theorem idx10_ix3 (n : Fin 8) (c : Fin 32) (p : Fin 4096) : idx_main_v10 (ix3 n c p) = pos4 n c p := by
  funext a
  apply Fin.ext
  have hn := n.isLt; have hc := c.isLt; have hp := p.isLt
  match a with
  | ⟨0, _⟩ => show ((n.val * 32 + c.val) * 4096 + p.val) / 131072 = n.val; omega
  | ⟨1, _⟩ => show ((n.val * 32 + c.val) * 4096 + p.val) / 4096 % 32 = c.val; omega
  | ⟨2, _⟩ => show ((n.val * 32 + c.val) * 4096 + p.val) / 64 % 64 = p.val / 64; omega
  | ⟨3, _⟩ => show ((n.val * 32 + c.val) * 4096 + p.val) % 64 = p.val % 64; omega

/-- The reshape [2, 4, 32, 64, 64] → [8, 32, 64, 64] reads (n, c, p / 64, p % 64) at the specification's index. -/
theorem idx1_pos4 (n : Fin 8) (c : Fin 32) (p : Fin 4096) : idx_main_v1 (pos4 n c p) = Cert.Spec.argIx n c p := by
  funext a
  apply Fin.ext
  have hn := n.isLt; have hc := c.isLt; have hp := p.isLt
  match a with
  | ⟨0, _⟩ => show (((n.val * 32 + c.val) * 64 + p.val / 64) * 64 + p.val % 64) / 524288 = n.val / 4; omega
  | ⟨1, _⟩ => show (((n.val * 32 + c.val) * 64 + p.val / 64) * 64 + p.val % 64) / 131072 % 4 = n.val % 4; omega
  | ⟨2, _⟩ => show (((n.val * 32 + c.val) * 64 + p.val / 64) * 64 + p.val % 64) / 4096 % 32 = c.val; omega
  | ⟨3, _⟩ => show (((n.val * 32 + c.val) * 64 + p.val / 64) * 64 + p.val % 64) / 64 % 64 = p.val / 64; omega
  | ⟨4, _⟩ => show (((n.val * 32 + c.val) * 64 + p.val / 64) * 64 + p.val % 64) % 64 = p.val % 64; omega

/-- The length's sum at (n, c, p) runs over the channels k of the same sample and position: the two broadcasts
    drop the channel coordinate and the sum puts k in its place. -/
theorem idx3_pos4 (n : Fin 8) (c k : Fin 32) (p : Fin 4096) :
    idx_main_v3 (idx_main_v4 (idx_main_v8 (pos4 n c p))) k = pos4 n k p := by
  funext a
  match a with
  | ⟨0, _⟩ => rfl
  | ⟨1, _⟩ => rfl
  | ⟨2, _⟩ => rfl
  | ⟨3, _⟩ => rfl

/-- Entry (n, a, b) of the batched product pairs channel k at position a … -/
theorem lidx11_ix3 (n : Fin 8) (a b : Fin 4096) (k : Fin 32) : lidx_main_v11 (ix3 n a b) k = ix3 n k a := by
  funext d
  match d with
  | ⟨0, _⟩ => rfl
  | ⟨1, _⟩ => rfl
  | ⟨2, _⟩ => rfl

/-- … with channel k at position b. -/
theorem ridx11_ix3 (n : Fin 8) (a b : Fin 4096) (k : Fin 32) : ridx_main_v11 (ix3 n a b) k = ix3 n k b := by
  funext d
  match d with
  | ⟨0, _⟩ => rfl
  | ⟨1, _⟩ => rfl
  | ⟨2, _⟩ => rfl

/-! ## The stages at an index

  The two argument arrays go through the same operations, so the stages of the first argument are, as functions of
  their array, those of the second: only the second's are read below. -/

/-- The first argument's normalised array is the same function of its array as the second's. -/
theorem v20_eq_v10 (x : (⟨S2x4x32x64x64, .f32⟩ : BufTy).Contents (Elt Ideal)) :
    val_main_v20 (F := Ideal) x = val_main_v10 (F := Ideal) x := rfl

/-- The first argument's batched product is the same function of its array as the second's. -/
theorem v21_eq_v11 (x : (⟨S2x4x32x64x64, .f32⟩ : BufTy).Contents (Elt Ideal)) :
    val_main_v21 (F := Ideal) x = val_main_v11 (F := Ideal) x := rfl

/-- The reshaped argument at (n, c, p / 64, p % 64) is the argument's feature at (n, c, p). -/
theorem v1_pos4 (x : (⟨S2x4x32x64x64, .f32⟩ : BufTy).Contents (Elt Ideal)) (n : Fin 8) (c : Fin 32) (p : Fin 4096) :
    val_main_v1 (F := Ideal) x (pos4 n c p) = Cert.Spec.feat x n c p := by
  rw [val_main_v1_apply, idx1_pos4]
  rfl

/-- The normalised array at (n, c, p): the feature divided by the square root of the channel vector's sum of
    squares (the sum starts from zero) plus the small constant. -/
theorem v10_ix3 (x : (⟨S2x4x32x64x64, .f32⟩ : BufTy).Contents (Elt Ideal)) (n : Fin 8) (c : Fin 32) (p : Fin 4096) :
    val_main_v10 (F := Ideal) x (ix3 n c p) = Cert.Spec.unit x n c p := by
  rw [val_main_v10_apply, idx10_ix3, val_main_v9_apply, val_main_v8_apply, val_main_v7_apply, val_main_v5_apply,
    val_main_v6_apply, val_main_cst_0_apply, val_main_v4_apply, val_main_v3_apply, val_main_cst_apply]
  simp only [idx3_pos4, val_main_v2_apply, v1_pos4, Ideal.hostDivf_def, Ideal.addf_def, Ideal.mulf_def,
    Ideal.hostUnary_sqrt_def, Ideal.ofBits_def, Ideal.ofBits_zero_f32, zero_add]
  rfl

/-- The batched product of the normalised array with itself, at (n, a, b), is the Gram entry. -/
theorem v11_ix3 (x : (⟨S2x4x32x64x64, .f32⟩ : BufTy).Contents (Elt Ideal)) (n : Fin 8) (a b : Fin 4096) :
    val_main_v11 (F := Ideal) x (ix3 n a b) = Cert.Spec.gram x n a b := by
  rw [val_main_v11_apply]
  simp only [lidx11_ix3, ridx11_ix3, v10_ix3]
  rfl

/-- The square of the second argument's Gram entry minus the first's, at (n, a, b). -/
theorem v23_ix3 (x0 x1 : (⟨S2x4x32x64x64, .f32⟩ : BufTy).Contents (Elt Ideal)) (n : Fin 8) (a b : Fin 4096) :
    val_main_v23 (F := Ideal) x0 x1 (ix3 n a b) = Cert.Spec.sqd x0 x1 n a b := by
  rw [val_main_v23_apply, val_main_v22_apply, v21_eq_v11, v11_ix3, v11_ix3]
  rfl

/-- The reference's last stage, as a function of the two argument arrays, is the loss at its one index. -/
theorem ref_eq (x0 x1 : (⟨S2x4x32x64x64, .f32⟩ : BufTy).Contents (Elt Ideal)) :
    Cert.ReferenceIdeal.Read.val_main_v27 (F := Ideal) x0 x1 = fun _ => Cert.Spec.loss x0 x1 := by
  funext i
  rw [val_main_v27_apply, val_main_v26_apply, val_main_v25_apply, val_main_v24_apply, val_main_cst_3_apply,
    val_main_cst_4_apply, val_main_cst_5_apply, val_main_cst_6_apply,
    sum_idx3 (n0 := 8) (n1 := 4096) (n2 := 4096)]
  simp only [v23_ix3, Ideal.hostDivf_def, Ideal.ofBits_def, Ideal.ofBits_zero_f32, zero_add]
  rfl

end Cert.ReferenceIdeal.RefValue

end
-- ==== Proof.lean ====
/-
  The certificate: a tiled similarity-distillation loss against its plain reference.

  Both programs take two feature arrays [2, 4, 32, 64, 64]. Each folds batch and layer into 8 samples and the
  spatial axes into 4096 positions, divides every position's 32-channel vector by its Euclidean length plus 1e-8,
  forms each sample's 4096 × 4096 Gram matrix of the normalised vectors, and sums the squared difference of the two
  arrays' Gram matrices over everything; the sum is divided by 4096², by 2 and by 4.

  The reference does this with whole-array operations. The kernel walks an 8 × 4 × 4 grid of 1024 × 1024 tiles:
  at each grid point it stages a row block and a column block of each array, computes the tile of both Gram
  matrices by two matrix products, reduces the squared difference to one number and adds it to an accumulator it
  carries from point to point; the first point resets the accumulator, the last stores it as the region's result.
  Over the extended reals the accumulator after the last point is the sum of the 128 tile totals, and summing tile
  by tile is summing over everything, because addition there is commutative and associative; no finiteness of the
  inputs is used.

  Each program's frame (it runs to the end, faults nowhere, leaves its arguments as launched) comes from its run:
  the kernel programs' from the region's body obligation at every grid point and a launch in which the two arrays
  that two windows read are held by those windows at half shares; the reference's from its operation-by-operation
  run. The idealization rewrote nothing, so that conjunct is trivial.
-/
import proofs.«110113_j85057532330632_1_alg».proof.Defs
import proofs.«110113_j85057532330632_1_alg».proof.Proof.Gen.Kernel
import proofs.«110113_j85057532330632_1_alg».proof.Proof.Gen.Kernel.Skeleton
import proofs.«110113_j85057532330632_1_alg».proof.Proof.Gen.Kernel.Launch
import proofs.«110113_j85057532330632_1_alg».proof.Proof.Gen.Kernel.Points
import proofs.«110113_j85057532330632_1_alg».proof.Proof.Gen.KernelIdeal
import proofs.«110113_j85057532330632_1_alg».proof.Proof.Gen.KernelIdeal.Skeleton
import proofs.«110113_j85057532330632_1_alg».proof.Proof.Gen.KernelIdeal.Launch
import proofs.«110113_j85057532330632_1_alg».proof.Proof.Gen.KernelIdeal.Points
import proofs.«110113_j85057532330632_1_alg».proof.Proof.Gen.ReferenceIdeal
import proofs.«110113_j85057532330632_1_alg».proof.Proof.Gen.ReferenceIdeal.Run
import proofs.«110113_j85057532330632_1_alg».proof.Proof.Gen.ReferenceIdeal.Read
import proofs.«110113_j85057532330632_1_alg».proof.Proof.Gen.Pre_finite_inputs
import proofs.«110113_j85057532330632_1_alg».proof.Proof.KI.Value
import proofs.«110113_j85057532330632_1_alg».proof.Proof.KI.Launch
import proofs.«110113_j85057532330632_1_alg».proof.Proof.K.Frame
import proofs.«110113_j85057532330632_1_alg».proof.Proof.K.Launch
import proofs.«110113_j85057532330632_1_alg».proof.Proof.K.Tail
import proofs.«110113_j85057532330632_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs and leaves both argument arrays as launched. -/
theorem frame_k : Cert.frame_Kernel := fun m ρ _ =>
  (θ_run Cert.Kernel.defs _ _).mono (fun _ h c => ⟨((h c).2 _ Cert.Kernel.Fr.arg0_rest).trans (Cert.Kernel.Fr.afterT_arg0 m _ c),
      ((h c).2 _ Cert.Kernel.Fr.arg1_rest).trans (Cert.Kernel.Fr.afterT_arg1 m _ c)⟩)
    (Cert.Kernel.Fr.run_main_of m ρ (Cert.Kernel.Fr.dats m) (Cert.Kernel.Fr.q_eq m)
      (fun c => (Cert.Kernel.Fr.body_obligation m c).loose) (fun _ _ => rfl) (Cert.Kernel.Fr.A_eq m) (Cert.Kernel.Fr.hin m) (Cert.Kernel.Fr.hout m))

/-- So does its idealization. -/
theorem frame_ki : Cert.frame_KernelIdeal := fun m ρ _ =>
  (θ_run Cert.KernelIdeal.defs _ _).mono (fun _ h c => ⟨((h c).2 _ Cert.KernelIdeal.Fr.arg0_rest).trans (Cert.KernelIdeal.Fr.afterT_arg0 m _ c),
      ((h c).2 _ Cert.KernelIdeal.Fr.arg1_rest).trans (Cert.KernelIdeal.Fr.afterT_arg1 m _ c)⟩)
    (Cert.KernelIdeal.Fr.run_main_of m ρ (Cert.KernelIdeal.Fr.dats m) (Cert.KernelIdeal.Fr.q_eq m)
      (fun c => (Cert.KernelIdeal.Fr.body_obligation m c).loose) (fun _ _ => rfl) (Cert.KernelIdeal.Fr.A_eq m) (Cert.KernelIdeal.Fr.hin m) (Cert.KernelIdeal.Fr.hout m))

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the loss of the two argument arrays: the kernel's accumulated
    tile totals divided three times, the reference's whole sum divided three times, of arguments that agree. -/
theorem algebraic : Cert.algebraic_KernelIdeal_ReferenceIdeal := by
  intro m ρ m' ρ' _ hagree
  refine ⟨fun c => (fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · exact (θ_run Cert.KernelIdeal.defs _ _).mono
      (fun _ h c => ⟨((h c).2 _ Cert.KernelIdeal.Fr.v6_rest).trans (Cert.KernelIdeal.Fr.result_eq m c),
        ((h c).2 _ Cert.KernelIdeal.Fr.arg0_rest).trans (Cert.KernelIdeal.Fr.afterT_arg0 m _ c),
      ((h c).2 _ Cert.KernelIdeal.Fr.arg1_rest).trans (Cert.KernelIdeal.Fr.afterT_arg1 m _ c)⟩)
      (Cert.KernelIdeal.Fr.run_main_of m ρ (Cert.KernelIdeal.Fr.dats m) (Cert.KernelIdeal.Fr.q_eq m)
      (fun c => (Cert.KernelIdeal.Fr.body_obligation m c).loose) (fun _ _ => rfl) (Cert.KernelIdeal.Fr.A_eq m) (Cert.KernelIdeal.Fr.hin m) (Cert.KernelIdeal.Fr.hout m))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, Cert.ReferenceIdeal.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
